-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S128x16 : Shape := ⟨2, ![128, 16]⟩
abbrev S16 : Shape := ⟨1, ![16]⟩
abbrev S16x128 : Shape := ⟨2, ![16, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S500000 : S_.BroadcastsInDim S500000 (![] : Fin 0 → Fin S500000.rank)
  reducesTo_S500000_S_d0 : S500000.ReducesTo [0] S_

variable [Facts]

def fn_part3 {F : FTy → Type} [FloatOps F] (main_v47 : IVec S_ 1) (main_v49 : IVec S500000 1) (main_c_19 : IVec S_ 1) : IVec S_ 1 :=
  let main_v50 : IVec S_ 1 := (fun x v => Host.reduce IntOp.andi x v reducesTo_S500000_S_d0 h_S_) main_v49 main_c_19
  let main_v51 : IVec S_ 1 := andi main_v47 main_v50
  main_v51

def fn_part2 {F : FTy → Type} [FloatOps F] (main_arg2 : IVec S500000 32) (main_arg8 : FVec F S16x128 .f32) (main_arg9 : FVec F S16x128 .f32) (main_v33 : IVec S_ 1) : IVec S_ 1 :=
  let main_v34 : FVec F S16x128 .f32 := Host.absf main_arg8
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16x128 .f32 := Host.absf main_arg9
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_c_16 : IVec S_ 32 := constantI S_ 32 0#32
  let main_v44 : IVec S500000 32 := broadcastInDim S500000 ![] bcast_S_S500000 main_c_16
  let main_v45 : IVec S500000 1 := cmpi .sge main_arg2 main_v44
  let main_c_17 : IVec S_ 1 := constantI S_ 1 1#1
  let main_v46 : IVec S_ 1 := (fun x v => Host.reduce IntOp.andi x v reducesTo_S500000_S_d0 h_S_) main_v45 main_c_17
  let main_v47 : IVec S_ 1 := andi main_v43 main_v46
  let main_c_18 : IVec S_ 32 := constantI S_ 32 8#32
  let main_v48 : IVec S500000 32 := broadcastInDim S500000 ![] bcast_S_S500000 main_c_18
  let main_v49 : IVec S500000 1 := cmpi .slt main_arg2 main_v48
  let main_c_19 : IVec S_ 1 := constantI S_ 1 1#1
  fn_part3 (F := F) main_v47 main_v49 main_c_19

def fn_part1 {F : FTy → Type} [FloatOps F] (main_arg2 : IVec S500000 32) (main_arg5 : FVec F S16 .f32) (main_arg6 : FVec F S16 .f32) (main_arg7 : FVec F S16 .f32) (main_arg8 : FVec F S16x128 .f32) (main_arg9 : FVec F S16x128 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg2 main_arg8 main_arg9 main_v33

def fn {F : FTy → Type} [FloatOps F] (main_arg0 : FVec F S500000x128 .f32) (main_arg1 : FVec F S500000x128 .f32) (main_arg2 : IVec S500000 32) (main_arg3 : FVec F S128x16 .f32) (main_arg4 : FVec F S16 .f32) (main_arg5 : FVec F S16 .f32) (main_arg6 : FVec F S16 .f32) (main_arg7 : FVec F S16 .f32) (main_arg8 : FVec F S16x128 .f32) (main_arg9 : FVec F S16x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg2 main_arg5 main_arg6 main_arg7 main_arg8 main_arg9 main_v13 main_v16
-- ==== Kernel.lean ====
abbrev S500000x128 : Shape := ⟨2, ![500000, 128]⟩
abbrev S500000 : Shape := ⟨1, ![500000]⟩
abbrev S128x16 : Shape := ⟨2, ![128, 16]⟩
abbrev S16 : Shape := ⟨1, ![16]⟩
abbrev S16x128 : Shape := ⟨2, ![16, 128]⟩
abbrev S500000x1 : Shape := ⟨2, ![500000, 1]⟩
abbrev S8x128 : Shape := ⟨2, ![8, 128]⟩
abbrev S8x1 : Shape := ⟨2, ![8, 1]⟩
abbrev S5000x128 : Shape := ⟨2, ![5000, 128]⟩
abbrev S5000x1 : Shape := ⟨2, ![5000, 1]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x16 : Shape := ⟨2, ![8, 16]⟩
abbrev S1x16 : Shape := ⟨2, ![1, 16]⟩
abbrev S_ : Shape := ⟨0, ![]⟩

abbrev nBuf : Space → Nat
  | .hbm => 46
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000, .i32⟩
  | .hbm, ⟨3, _⟩ => ⟨S128x16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16x128, .f32⟩
  | .hbm, ⟨9, _⟩ => ⟨S16x128, .f32⟩
  | .hbm, ⟨10, _⟩ => ⟨S500000x1, .i32⟩
  | .hbm, ⟨11, _⟩ => ⟨S8x128, .f32⟩
  | .hbm, ⟨12, _⟩ => ⟨S8x1, .f32⟩
  | .hbm, ⟨13, _⟩ => ⟨S8x128, .f32⟩
  | .hbm, ⟨14, _⟩ => ⟨S8x128, .f32⟩
  | .hbm, ⟨15, _⟩ => ⟨S8x16, .f32⟩
  | .hbm, ⟨16, _⟩ => ⟨S1x16, .f32⟩
  | .hbm, ⟨17, _⟩ => ⟨S8x16, .f32⟩
  | .hbm, ⟨18, _⟩ => ⟨S8x16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S1x16, .f32⟩
  | .hbm, ⟨24, _⟩ => ⟨S8x16, .f32⟩
  | .hbm, ⟨25, _⟩ => ⟨S8x16, .f32⟩
  | .hbm, ⟨26, _⟩ => ⟨S1x16, .f32⟩
  | .hbm, ⟨27, _⟩ => ⟨S8x16, .f32⟩
  | .hbm, ⟨28, _⟩ => ⟨S8x16, .f32⟩
  | .hbm, ⟨29, _⟩ => ⟨S1x16, .f32⟩
  | .hbm, ⟨30, _⟩ => ⟨S8x16, .f32⟩
  | .hbm, ⟨31, _⟩ => ⟨S8x16, .f32⟩
  | .hbm, ⟨32, _⟩ => ⟨S_, .f32⟩
  | .hbm, ⟨33, _⟩ => ⟨S8x16, .f32⟩
  | .hbm, ⟨34, _⟩ => ⟨S8x16, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S8x128, .f32⟩
  | .hbm, ⟨44, _⟩ => ⟨S8x128, .f32⟩
  | .hbm, ⟨45, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .i32⟩
  | .local _ .vmem, ⟨5, _⟩ => ⟨S5000x1, .i32⟩
  | .local _ .vmem, ⟨6, _⟩ => ⟨S8x128, .f32⟩
  | .local _ .vmem, ⟨7, _⟩ => ⟨S8x1, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .i32⟩
  | .local _ .vmem, ⟨13, _⟩ => ⟨S5000x1, .i32⟩
  | .local _ .vmem, ⟨14, _⟩ => ⟨S8x128, .f32⟩
  | .local _ .vmem, ⟨15, _⟩ => ⟨S8x128, .f32⟩
  | .local _ .vmem, ⟨16, _⟩ => ⟨S5000x128, .f32⟩
  | .local _ .vmem, ⟨17, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S500000_S500000x1 : S500000.ShapeCasts S500000x1
  inb_S8x128_S8x128_0_0 : ∀ a, (![0, 0] : Fin 2 → Nat) a + S8x128.size a ≤ S8x128.size a
  h_S8x128 : 0 < S8x128.numel
  inb_S8x1_S8x1_0_0 : ∀ a, (![0, 0] : Fin 2 → Nat) a + S8x1.size a ≤ S8x1.size a
  h_S8x1 : 0 < S8x1.numel
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  natLt_1_32 : 1 < 32
  broadcasts_S5000x1_S5000x128 : S5000x1.Broadcasts S5000x128
  reduces_S5000x128_S128 : S5000x128.Reduces [0] S128
  shapeCasts_S128_S1x128 : S128.ShapeCasts S1x128
  reduces_S5000x1_S1 : S5000x1.Reduces [0] S1
  shapeCasts_S1_S1x1 : S1.ShapeCasts S1x1
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S8x1_S1x1_0_0 : ∀ a, (![0, 0] : Fin 2 → Nat) a + S1x1.size a ≤ S8x1.size a
  h_S1x1 : 0 < S1x1.numel
  shapeCasts_S1x1_S1x1 : S1x1.ShapeCasts S1x1
  inb_S8x128_S1x128_1_0 : ∀ a, (![1, 0] : Fin 2 → Nat) a + S1x128.size a ≤ S8x128.size a
  inb_S8x1_S1x1_1_0 : ∀ a, (![1, 0] : Fin 2 → Nat) a + S1x1.size a ≤ S8x1.size a
  inb_S8x128_S1x128_2_0 : ∀ a, (![2, 0] : Fin 2 → Nat) a + S1x128.size a ≤ S8x128.size a
  inb_S8x1_S1x1_2_0 : ∀ a, (![2, 0] : Fin 2 → Nat) a + S1x1.size a ≤ S8x1.size a
  inb_S8x128_S1x128_3_0 : ∀ a, (![3, 0] : Fin 2 → Nat) a + S1x128.size a ≤ S8x128.size a
  inb_S8x1_S1x1_3_0 : ∀ a, (![3, 0] : Fin 2 → Nat) a + S1x1.size a ≤ S8x1.size a
  inb_S8x128_S1x128_4_0 : ∀ a, (![4, 0] : Fin 2 → Nat) a + S1x128.size a ≤ S8x128.size a
  inb_S8x1_S1x1_4_0 : ∀ a, (![4, 0] : Fin 2 → Nat) a + S1x1.size a ≤ S8x1.size a
  inb_S8x128_S1x128_5_0 : ∀ a, (![5, 0] : Fin 2 → Nat) a + S1x128.size a ≤ S8x128.size a
  inb_S8x1_S1x1_5_0 : ∀ a, (![5, 0] : Fin 2 → Nat) a + S1x1.size a ≤ S8x1.size a
  inb_S8x128_S1x128_6_0 : ∀ a, (![6, 0] : Fin 2 → Nat) a + S1x128.size a ≤ S8x128.size a
  inb_S8x1_S1x1_6_0 : ∀ a, (![6, 0] : Fin 2 → Nat) a + S1x1.size a ≤ S8x1.size a
  inb_S8x128_S1x128_7_0 : ∀ a, (![7, 0] : Fin 2 → Nat) a + S1x128.size a ≤ S8x128.size a
  inb_S8x1_S1x1_7_0 : ∀ a, (![7, 0] : Fin 2 → Nat) a + S1x1.size a ≤ S8x1.size a
  bcast_S8x1_S8x128_0_1 : S8x1.BroadcastsInDim S8x128 (![0, 1] : Fin 2 → Fin S8x128.rank)
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S16 : S_.BroadcastsInDim S16 (![] : Fin 0 → Fin S16.rank)
  bcast_S_S8x16 : S_.BroadcastsInDim S8x16 (![] : Fin 0 → Fin S8x16.rank)
  broadcasts_S1x128_S5000x128 : S1x128.Broadcasts S5000x128
  dot_S8x128_S128x16_S8x16_1_0_0_1_n_n_wf : DotDims.WF S8x128 S128x16 S8x16 [1] [0] [0] [1] [] []
  dot_S8x16_S16x128_S8x128_1_0_0_1_n_n_wf : DotDims.WF S8x16 S16x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .i32 = 32 ∨ (Rect.block (s := S500000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .i32 = 32 ∨ (Rect.block (s := S500000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S500000x128.size a
  hwx1_5 : ∀ i : grid1.Coords, EltTy.bits .f32 = 32 ∨ (Rect.block (s := S500000x128) S5000x128.size (cc1_transform_5 i) (hinb1_5 i)).WholeWords (EltTy.packing .f32)

variable [Facts₀]

def dot_S8x128_S128x16_S8x16_1_0_0_1_n_n : DotDims S8x128 S128x16 S8x16 where
  lhsContracting := [1]
  rhsContracting := [0]
  lhsNonContracting := [0]
  rhsNonContracting := [1]
  lhsBatch := []
  rhsBatch := []
  wf := dot_S8x128_S128x16_S8x16_1_0_0_1_n_n_wf
def dot_S8x16_S16x128_S8x128_1_0_0_1_n_n : DotDims S8x16 S16x128 S8x128 where
  lhsContracting := [1]
  rhsContracting := [0]
  lhsNonContracting := [0]
  rhsNonContracting := [1]
  lhsBatch := []
  rhsBatch := []
  wf := dot_S8x16_S16x128_S8x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S8x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S8x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S8x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000 : Shape := ⟨1, ![500000]⟩
abbrev S128x16 : Shape := ⟨2, ![128, 16]⟩
abbrev S16 : Shape := ⟨1, ![16]⟩
abbrev S16x128 : Shape := ⟨2, ![16, 128]⟩
abbrev S_ : Shape := ⟨0, ![]⟩
abbrev S8x128 : Shape := ⟨2, ![8, 128]⟩
abbrev S500000x1 : Shape := ⟨2, ![500000, 1]⟩
abbrev S8x1 : Shape := ⟨2, ![8, 1]⟩
abbrev S8x16 : Shape := ⟨2, ![8, 16]⟩
abbrev S1x16 : Shape := ⟨2, ![1, 16]⟩
abbrev S8x1x128 : Shape := ⟨3, ![8, 1, 128]⟩
abbrev S8x2x128 : Shape := ⟨3, ![8, 2, 128]⟩
abbrev S500000x2x128 : Shape := ⟨3, ![500000, 2, 128]⟩
abbrev S500000x1x128 : Shape := ⟨3, ![500000, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000, .i32⟩
  | .hbm, ⟨3, _⟩ => ⟨S128x16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16x128, .f32⟩
  | .hbm, ⟨9, _⟩ => ⟨S16x128, .f32⟩
  | .hbm, ⟨10, _⟩ => ⟨S500000x128, .f32⟩
  | .hbm, ⟨11, _⟩ => ⟨S_, .f32⟩
  | .hbm, ⟨12, _⟩ => ⟨S8x128, .f32⟩
  | .hbm, ⟨13, _⟩ => ⟨S500000x1, .i32⟩
  | .hbm, ⟨14, _⟩ => ⟨S8x128, .f32⟩
  | .hbm, ⟨15, _⟩ => ⟨S_, .f32⟩
  | .hbm, ⟨16, _⟩ => ⟨S500000x1, .f32⟩
  | .hbm, ⟨17, _⟩ => ⟨S_, .f32⟩
  | .hbm, ⟨18, _⟩ => ⟨S8x1, .f32⟩
  | .hbm, ⟨19, _⟩ => ⟨S500000x1, .i32⟩
  | .hbm, ⟨20, _⟩ => ⟨S8x1, .f32⟩
  | .hbm, ⟨21, _⟩ => ⟨S8x128, .f32⟩
  | .hbm, ⟨22, _⟩ => ⟨S8x128, .f32⟩
  | .hbm, ⟨23, _⟩ => ⟨S8x16, .f32⟩
  | .hbm, ⟨24, _⟩ => ⟨S1x16, .f32⟩
  | .hbm, ⟨25, _⟩ => ⟨S8x16, .f32⟩
  | .hbm, ⟨26, _⟩ => ⟨S8x16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S8x16, .f32⟩
  | .hbm, ⟨33, _⟩ => ⟨S8x16, .f32⟩
  | .hbm, ⟨34, _⟩ => ⟨S1x16, .f32⟩
  | .hbm, ⟨35, _⟩ => ⟨S8x16, .f32⟩
  | .hbm, ⟨36, _⟩ => ⟨S8x16, .f32⟩
  | .hbm, ⟨37, _⟩ => ⟨S1x16, .f32⟩
  | .hbm, ⟨38, _⟩ => ⟨S8x16, .f32⟩
  | .hbm, ⟨39, _⟩ => ⟨S8x16, .f32⟩
  | .hbm, ⟨40, _⟩ => ⟨S_, .f32⟩
  | .hbm, ⟨41, _⟩ => ⟨S8x16, .f32⟩
  | .hbm, ⟨42, _⟩ => ⟨S8x16, .f32⟩
  | .hbm, ⟨43, _⟩ => ⟨S8x128, .f32⟩
  | .hbm, ⟨44, _⟩ => ⟨S8x128, .f32⟩
  | .hbm, ⟨45, _⟩ => ⟨S8x1x128, .f32⟩
  | .hbm, ⟨46, _⟩ => ⟨S8x1x128, .f32⟩
  | .hbm, ⟨47, _⟩ => ⟨S8x2x128, .f32⟩
  | .hbm, ⟨48, _⟩ => ⟨S_, .f32⟩
  | .hbm, ⟨49, _⟩ => ⟨S8x128, .f32⟩
  | .hbm, ⟨50, _⟩ => ⟨S_, .f32⟩
  | .hbm, ⟨51, _⟩ => ⟨S8x128, .f32⟩
  | .hbm, ⟨52, _⟩ => ⟨S8x128, .f32⟩
  | .hbm, ⟨53, _⟩ => ⟨S8x1x128, .f32⟩
  | .hbm, ⟨54, _⟩ => ⟨S8x2x128, .f32⟩
  | .hbm, ⟨55, _⟩ => ⟨S8x2x128, .f32⟩
  | .hbm, ⟨56, _⟩ => ⟨S8x2x128, .f32⟩
  | .hbm, ⟨57, _⟩ => ⟨S_, .f32⟩
  | .hbm, ⟨58, _⟩ => ⟨S8x128, .f32⟩
  | .hbm, ⟨59, _⟩ => ⟨S8x1x128, .f32⟩
  | .hbm, ⟨60, _⟩ => ⟨S8x2x128, .f32⟩
  | .hbm, ⟨61, _⟩ => ⟨S8x2x128, .f32⟩
  | .hbm, ⟨62, _⟩ => ⟨S_, .i32⟩
  | .hbm, ⟨63, _⟩ => ⟨S500000, .i32⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S500000, .i32⟩
  | .hbm, ⟨69, _⟩ => ⟨S500000x1, .i32⟩
  | .hbm, ⟨70, _⟩ => ⟨S500000x2x128, .f32⟩
  | .hbm, ⟨71, _⟩ => ⟨S500000x1x128, .f32⟩
  | .hbm, ⟨72, _⟩ => ⟨S500000x128, .f32⟩
  | .hbm, ⟨73, _⟩ => ⟨S500000x128, .f32⟩
  | .hbm, ⟨74, _⟩ => ⟨S500000x1x128, .f32⟩
  | .hbm, ⟨75, _⟩ => ⟨S500000x128, .f32⟩
  | .hbm, ⟨76, _⟩ => ⟨S500000x128, .f32⟩
  | .hbm, ⟨77, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S16 : S_.BroadcastsInDim S16 (![] : Fin 0 → Fin S16.rank)
  bcast_S_S8x16 : S_.BroadcastsInDim S8x16 (![] : Fin 0 → Fin S8x16.rank)
  bcast_S8x128_S8x1x128_0_2 : S8x128.BroadcastsInDim S8x1x128 (![0, 2] : Fin 2 → Fin S8x1x128.rank)
  concatenates_S8x1x128_S8x1x128_S8x2x128_d1 : Shape.Concatenates [S8x1x128, S8x1x128] S8x2x128 1
  reducesTo_S8x2x128_S8x128_d1 : S8x2x128.ReducesTo [1] S8x128
  h_S_ : 0 < S_.numel
  bcast_S8x1x128_S8x2x128_0_1_2 : S8x1x128.BroadcastsInDim S8x2x128 (![0, 1, 2] : Fin 3 → Fin S8x2x128.rank)
  bcast_S_S500000 : S_.BroadcastsInDim S500000 (![] : Fin 0 → Fin S500000.rank)
  slices_S500000x2x128_S500000x1x128_0_0_0 : S500000x2x128.Slices ![0, 0, 0] S500000x1x128
  shapeCasts_S500000x1x128_S500000x128 : S500000x1x128.ShapeCasts S500000x128
  slices_S500000x2x128_S500000x1x128_0_1_0 : S500000x2x128.Slices ![0, 1, 0] S500000x1x128
  scatter_S8x128_S500000x1_S500000x128_1_0_0_1_wf : ScatterDims.WF S8x128 S500000x1 S500000x128 [1] [0] [0] 1
  scatter_S8x1_S500000x1_S500000x1_1_0_0_1_wf : ScatterDims.WF S8x1 S500000x1 S500000x1 [1] [0] [0] 1
  dot_S8x128_S128x16_S8x16_1_0_0_1_n_n_wf : DotDims.WF S8x128 S128x16 S8x16 [1] [0] [0] [1] [] []
  dot_S8x16_S16x128_S8x128_1_0_0_1_n_n_wf : DotDims.WF S8x16 S16x128 S8x128 [1] [0] [0] [1] [] []
  gather_S8x2x128_S500000x1_S500000x2x128_12_0_n_n_0_1_12128_wf : GatherDims.WF S8x2x128 S500000x1 S500000x2x128 [1, 2] [0] [] [0] [] 1 ![1, 2, 128]

variable [Facts₀]

def scatter_S8x128_S500000x1_S500000x128_1_0_0_1 : ScatterDims S8x128 S500000x1 S500000x128 where
  updateWindowDims := [1]
  insertedWindowDims := [0]
  scatterDimsToOperandDims := [0]
  indexVectorDim := 1
  wf := scatter_S8x128_S500000x1_S500000x128_1_0_0_1_wf
def scatter_S8x1_S500000x1_S500000x1_1_0_0_1 : ScatterDims S8x1 S500000x1 S500000x1 where
  updateWindowDims := [1]
  insertedWindowDims := [0]
  scatterDimsToOperandDims := [0]
  indexVectorDim := 1
  wf := scatter_S8x1_S500000x1_S500000x1_1_0_0_1_wf
def dot_S8x128_S128x16_S8x16_1_0_0_1_n_n : DotDims S8x128 S128x16 S8x16 where
  lhsContracting := [1]
  rhsContracting := [0]
  lhsNonContracting := [0]
  rhsNonContracting := [1]
  lhsBatch := []
  rhsBatch := []
  wf := dot_S8x128_S128x16_S8x16_1_0_0_1_n_n_wf
def dot_S8x16_S16x128_S8x128_1_0_0_1_n_n : DotDims S8x16 S16x128 S8x128 where
  lhsContracting := [1]
  rhsContracting := [0]
  lhsNonContracting := [0]
  rhsNonContracting := [1]
  lhsBatch := []
  rhsBatch := []
  wf := dot_S8x16_S16x128_S8x128_1_0_0_1_n_n_wf
def gather_S8x2x128_S500000x1_S500000x2x128_12_0_n_n_0_1_12128 : GatherDims S8x2x128 S500000x1 S500000x2x128 where
  offsetDims := [1, 2]
  collapsedSliceDims := [0]
  operandBatchingDims := []
  startIndicesBatchingDims := []
  startIndexMap := [0]
  indexVectorDim := 1
  sliceSizes := ![1, 2, 128]
  wf := gather_S8x2x128_S500000x1_S500000x2x128_12_0_n_n_0_1_12128_wf

class Facts : Prop extends Facts₀ where

variable [Facts]
-- ==== Proof.HostChain.lean ====
/-
  The small dense part between the two passes, as named functions of the per-segment sums and counts:
  mean = sum / count, a linear map to 16 hidden units, an affine normalisation
  (z − μ) · (σ² + ε)^(-1/2) · γ + β, its positive part, two linear maps back to 128 lanes, and the two-way
  softmax of the pair, written with the pair's maximum subtracted:
      w3 = exp(e3 − m) / (exp(e3 − m) + exp(e5 − m)),   w5 = exp(e5 − m) / (same),   m = max(e3, e5).
  These are the operations of the kernel's program between its two passes, in its order.
-/
import proofs.«424673_j84559316123982_1_alg».proof.Proof.Gen.KernelIdeal

noncomputable section

namespace Cert.KernelIdeal.Chain

open Cert.KernelIdeal Cert.KernelIdeal.Gen Idealize.ShloMosaic

variable {F : FTy → Type} [FloatOps F]

/-- A length-16 vector repeated down the 8 segments. -/
def rep16 (v : FVec F S16 .f32) : FVec F S8x16 .f32 :=
  broadcastInDim S8x16 ![0, 1] bcast_S1x16_S8x16_0_1 (broadcastInDim S1x16 ![1] bcast_S16_S1x16_1 v)

/-- The hidden activations: positive part of the normalised linear image of the segment means. -/
def hidden (seg : FVec F S8x128 .f32) (cnt : FVec F S8x1 .f32) (wsq : FVec F S128x16 .f32)
    (γ β μ var : FVec F S16 .f32) : FVec F S8x16 .f32 :=
  maximumf
    (addf
      (mulf
        (mulf
          (subf
            (Host.dotGeneral dot_S8x128_S128x16_S8x16_1_0_0_1_n_n none
              (Host.divf seg (broadcastInDim S8x128 ![0, 1] bcast_S8x1_S8x128_0_1 cnt)) wsq)
            (rep16 μ))
          (rep16 (Host.rsqrt (addf var (broadcastInDim S16 ![] bcast_S_S16 (constant S_ .f32 0x3A83126F#32))))))
        (rep16 γ))
      (rep16 β))
    (broadcastInDim S8x16 ![] bcast_S_S8x16 (constant S_ .f32 0x00000000#32))

/-- A linear map from the 16 hidden units back to 128 lanes. -/
def excite (z : FVec F S8x16 .f32) (w : FVec F S16x128 .f32) : FVec F S8x128 .f32 :=
  Host.dotGeneral dot_S8x16_S16x128_S8x128_1_0_0_1_n_n none z w

/-- The first weight of the two-way softmax of (a, b), the maximum subtracted. -/
def softFst (a b : FVec F S8x128 .f32) : FVec F S8x128 .f32 :=
  Host.divf (Host.exp (subf a (maximumf a b)))
    (addf (Host.exp (subf a (maximumf a b))) (Host.exp (subf b (maximumf a b))))

/-- The second weight of the two-way softmax of (a, b), the maximum subtracted. -/
def softSnd (a b : FVec F S8x128 .f32) : FVec F S8x128 .f32 :=
  Host.divf (Host.exp (subf b (maximumf a b)))
    (addf (Host.exp (subf a (maximumf a b))) (Host.exp (subf b (maximumf a b))))

/-- The weight table applied to the first feature array. -/
def attn3 (seg : FVec F S8x128 .f32) (cnt : FVec F S8x1 .f32) (wsq : FVec F S128x16 .f32)
    (γ β μ var : FVec F S16 .f32) (w3 w5 : FVec F S16x128 .f32) : FVec F S8x128 .f32 :=
  softFst (excite (hidden seg cnt wsq γ β μ var) w3) (excite (hidden seg cnt wsq γ β μ var) w5)

/-- The weight table applied to the second feature array. -/
def attn5 (seg : FVec F S8x128 .f32) (cnt : FVec F S8x1 .f32) (wsq : FVec F S128x16 .f32)
    (γ β μ var : FVec F S16 .f32) (w3 w5 : FVec F S16x128 .f32) : FVec F S8x128 .f32 :=
  softSnd (excite (hidden seg cnt wsq γ β μ var) w3) (excite (hidden seg cnt wsq γ β μ var) w5)

end Cert.KernelIdeal.Chain

end
-- ==== Proof.Spec.lean ====
/-
  The mathematics both programs compute, stated once over the extended reals and literal shapes.

  Rows n = 0 … 499999 carry two feature vectors x0 n, x1 n (128 lanes) and a segment id, a 32-bit word.
  Segment b (b = 0 … 7) is the set of rows whose id word is the word of b.
    * `segSum`  : per segment and lane, the sum of x0 + x1 over the segment's rows;
    * `segCount`: per segment, the number of its rows;
    * `combine` : row n, lane c  ↦  Σ_b [id n = b] · (x0 n c · a3 b c + x1 n c · a5 b c)
                  for two 8 × 128 weight tables a3, a5.
  When row n's id is the word of b0, the sum in `combine` has the single term b0 (`combineAt_of_id`):
  a product with 0 vanishes on every extended real, so no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- features: 500000 rows of 128 lanes -/
abbrev Rows : Shape := ⟨2, ![500000, 128]⟩
/-- segment ids as a column -/
abbrev IdCol : Shape := ⟨2, ![500000, 1]⟩
/-- segment ids as a vector -/
abbrev IdVec : Shape := ⟨1, ![500000]⟩
/-- one row of 128 lanes per segment -/
abbrev Segs : Shape := ⟨2, ![8, 128]⟩
/-- one number per segment, as a column -/
abbrev SegCol : Shape := ⟨2, ![8, 1]⟩

/-- The id vector laid out as a column: entry (n, 0) is row n's id. -/
def idsCol (x2 : IdVec.Idx → BitVec 32) : IdCol.Idx → BitVec 32 := fun i => x2 (ix1 (i 0))

theorem idsCol_apply (x2 : IdVec.Idx → BitVec 32) (n : Fin 500000) (z : Fin 1) :
    idsCol x2 (ix2 n z) = x2 (ix1 n) := rfl

/-- Segment b, lane c: the sum of x0 + x1 over the rows whose id is the word of b. -/
def segSumAt (x0 x1 : Rows.Idx → EReal) (ids : IdCol.Idx → BitVec 32) (b : Fin 8) (c : Fin 128) : EReal :=
  ∑ n : Fin 500000, if ids (ix2 n 0) = BitVec.ofNat 32 b.val then x0 (ix2 n c) + x1 (ix2 n c) else 0

def segSum (x0 x1 : Rows.Idx → EReal) (ids : IdCol.Idx → BitVec 32) : Segs.Idx → EReal :=
  fun j => segSumAt x0 x1 ids (j 0) (j 1)

/-- Segment b: the number of rows whose id is the word of b. -/
def segCountAt (ids : IdCol.Idx → BitVec 32) (b : Fin 8) : EReal :=
  ∑ n : Fin 500000, if ids (ix2 n 0) = BitVec.ofNat 32 b.val then (1 : EReal) else 0

def segCount (ids : IdCol.Idx → BitVec 32) : SegCol.Idx → EReal :=
  fun j => segCountAt ids (j 0)

/-- Row n, lane c: the weighted pair x0·a3 + x1·a5 of the segment the row's id names, as a sum over the
    eight segments of the indicator times the pair. -/
def combineAt (x0 x1 : Rows.Idx → EReal) (ids : IdCol.Idx → BitVec 32) (a3 a5 : Segs.Idx → EReal)
    (n : Fin 500000) (c : Fin 128) : EReal :=
  ∑ b : Fin 8, (if ids (ix2 n 0) = BitVec.ofNat 32 b.val then (1 : EReal) else 0)
      * (x0 (ix2 n c) * a3 (ix2 b c) + x1 (ix2 n c) * a5 (ix2 b c))

def combine (x0 x1 : Rows.Idx → EReal) (ids : IdCol.Idx → BitVec 32) (a3 a5 : Segs.Idx → EReal) : Rows.Idx → EReal :=
  fun i => combineAt x0 x1 ids a3 a5 (i 0) (i 1)

/-- Distinct segments have distinct id words. -/
theorem ofNat_seg_inj {b b' : Fin 8} (h : BitVec.ofNat 32 b.val = BitVec.ofNat 32 b'.val) : b = b' := by
  have := congrArg BitVec.toNat h
  simp only [BitVec.toNat_ofNat] at this
  have hb : b.val % 2 ^ 32 = b.val := Nat.mod_eq_of_lt (by omega)
  have hb' : b'.val % 2 ^ 32 = b'.val := Nat.mod_eq_of_lt (by omega)
  exact Fin.ext (by omega)

/-- A row whose id is the word of b0 takes segment b0's pair, and nothing else. -/
theorem combineAt_of_id (x0 x1 : Rows.Idx → EReal) (ids : IdCol.Idx → BitVec 32) (a3 a5 : Segs.Idx → EReal)
    (n : Fin 500000) (c : Fin 128) (b0 : Fin 8) (h : ids (ix2 n 0) = BitVec.ofNat 32 b0.val) :
    combineAt x0 x1 ids a3 a5 n c = x0 (ix2 n c) * a3 (ix2 b0 c) + x1 (ix2 n c) * a5 (ix2 b0 c) := by
  unfold combineAt
  rw [Finset.sum_eq_single b0]
  · rw [if_pos h, one_mul]
  · intro b _ hb
    rw [if_neg (fun e => hb (ofNat_seg_inj (h.symm.trans e)).symm), zero_mul]
  · intro hb; exact absurd (Finset.mem_univ _) hb

end Cert.Spec

end
-- ==== Proof.ReduceValue.lean ====
/-
  The first pass: what its two accumulated outputs hold once every row tile has been visited.
  Tile t (t = 0 … 99) holds rows 5000·t … 5000·t + 4999. At tile 0 both outputs are reset to zero; at every
  tile, for each segment b, row b of the first output grows by Σ_r (x0 + x1)(row r of the tile) · [id r = b]
  and entry b of the second by Σ_r [id r = b]. After the last tile they are the per-segment sums and counts
  over all 500000 rows.

  The road. (1) The mask of segment b at a row is the indicator [id = word of b] as an extended real, so a tile's
  lane sum of (x0 + x1) · mask is Σ_r (x0 + x1)(r, l) · [id r = b], and the sum of the mask is Σ_r [id r = b].
  (2) What one tile leaves: each of the eight row stores writes (the row's previous contents) + (the tile's
  contribution), the rows are disjoint and cover the block, so the block afterwards is ONE function of its index:
  previous + contribution. At the first tile the previous contents are the zeros just stored, each row reading them
  back through the earlier row stores, which leave its own row untouched. (3) By induction on the tile, after tile n
  entry (b, l) is the sum of the terms of rows 0 … 5000·(n+1) − 1: tile n's rows are rows 5000·n + r of the arrays.
  (4) After tile 99 that is the sum over all 500000 rows, u · 1 = u and u · 0 = 0 turning the indicator product into
  the specification's choice; the one write-back, at the last tile, writes the whole array.
-/
import proofs.«424673_j84559316123982_1_alg».proof.Proof.Gen.KernelIdeal.Frame
import proofs.«424673_j84559316123982_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Reduce

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-! ## The body's arithmetic, read at an index -/

/-- The indicator of "this row's id is the word w", as an extended real. -/
def ind (x w : BitVec 32) : EReal := if x = w then 1 else 0

/-- An equality test widened to 32 bits and read as a signed integer is the indicator. -/
theorem sitofp_cmpi_eq (x w : BitVec 32) :
    FloatOps.sitofp (F := Ideal) .f32 ((IntOp.cmpi .eq x w).setWidth 32) = ind x w := by
  unfold ind
  show ((((IntOp.cmpi .eq x w).setWidth 32).toInt : ℝ) : EReal) = _
  by_cases h : x = w
  · rw [if_pos h]; subst h
    have e : (IntOp.cmpi .eq x x).setWidth 32 = 1#32 := by unfold IntOp.cmpi; simp
    rw [e]; norm_num
  · rw [if_neg h]
    have e : (IntOp.cmpi .eq x w).setWidth 32 = 0#32 := by
      unfold IntOp.cmpi; rw [show (x == w) = false from beq_eq_false_iff_ne.mpr h]; rfl
    rw [e]; simp

/-- The mask column of segment word w over a tile's ids: 1.0 on the rows whose id is w, 0.0 elsewhere. -/
def maskv {F : FTy → Type} [FloatOps F] (w : BitVec 32) (ids : IVec S5000x1 32) : FVec F S5000x1 .f32 :=
  sitofp .f32 (extui 32 (cmpi .eq ids (broadcast S5000x1 w)) natLt_1_32)

theorem maskv_apply (w : BitVec 32) (ids : IVec S5000x1 32) (i : S5000x1.Idx) :
    maskv (F := Ideal) w ids i = ind (ids i) w := sitofp_cmpi_eq (ids i) w

/-- One tile's contribution to a segment's row: the lane sums of u · mask, as a 1 × 128 row. -/
def tileSum {F : FTy → Type} [FloatOps F] (w : BitVec 32) (u : FVec F S5000x128 .f32) (ids : IVec S5000x1 32) : FVec F S1x128 .f32 :=
  shapeCast S1x128 (multiReduction .add [0] S128 (mulf u (broadcastTo S5000x128 (maskv w ids) broadcasts_S5000x1_S5000x128))
    0x00000000#32 reduces_S5000x128_S128 (.inl rfl) rfl) shapeCasts_S128_S1x128

/-- One tile's contribution to a segment's count: the sum of the mask, as a 1 × 1 block. -/
def tileCount {F : FTy → Type} [FloatOps F] (w : BitVec 32) (ids : IVec S5000x1 32) : FVec F S1x1 .f32 :=
  shapeCast S1x1 (multiReduction .add [0] S1 (maskv w ids) 0x00000000#32 reduces_S5000x1_S1 (.inl rfl) rfl) shapeCasts_S1_S1x1

theorem tileSum_apply (w : BitVec 32) (u : FVec Ideal S5000x128 .f32) (ids : IVec S5000x1 32) (p : Fin 1) (l : Fin 128) :
    tileSum w u ids (ix2 p l) = ∑ r : Fin 5000, u (ix2 r l) * ind (ids (ix2 r 0)) w := by
  unfold tileSum
  refine (shapeCast_apply _ _ (ix2 p l) (ix1 l) ?_).trans ?_
  · rw [Shape.rowMajor_val_one, Shape.rowMajor_val_two]
    show l.val = p.val * 128 + l.val
    have := p.isLt; omega
  refine (Ideal.multiReduction_add_single _ _ reduces_S5000x128_S128 _ _ (ix1 l)).trans ?_
  refine Finset.sum_congr rfl fun r _ => ?_
  have e : reduces_S5000x128_S128.lift (ix1 l) r = ix2 r l :=
    funext fun a => Fin.ext (match a with | ⟨0, _⟩ => rfl | ⟨1, _⟩ => rfl)
  rw [e]
  show u (ix2 r l) * broadcastTo S5000x128 (maskv w ids) broadcasts_S5000x1_S5000x128 (ix2 r l) = _
  congr 1
  refine (broadcastTo_apply _ _ (ix2 r l) (ix2 r 0) ?_).trans (maskv_apply w ids _)
  intro a
  match a with
  | ⟨0, _⟩ => rfl
  | ⟨1, _⟩ => rfl

theorem tileCount_apply (w : BitVec 32) (ids : IVec S5000x1 32) (p q : Fin 1) :
    tileCount (F := Ideal) w ids (ix2 p q) = ∑ r : Fin 5000, ind (ids (ix2 r 0)) w := by
  unfold tileCount
  refine (shapeCast_apply _ _ (ix2 p q) (ix1 q) ?_).trans ?_
  · rw [Shape.rowMajor_val_one, Shape.rowMajor_val_two]
    show q.val = p.val * 1 + q.val
    have := p.isLt; omega
  refine (Ideal.multiReduction_add_single _ _ reduces_S5000x1_S1 _ _ (ix1 q)).trans ?_
  refine Finset.sum_congr rfl fun r _ => ?_
  have e : reduces_S5000x1_S1.lift (ix1 q) r = ix2 r 0 :=
    funext fun a => Fin.ext (match a with | ⟨0, _⟩ => rfl | ⟨1, _⟩ => by show (q : Nat) = 0; have := q.isLt; omega)
  rw [e]
  exact maskv_apply w ids _

/-! ## What one point leaves in the two outputs -/

/-- What the tile (u, ids) adds to row b, lane l of the sums: the rows of the tile whose id is the word of b. -/
def rowAdd (u : FVec Ideal S5000x128 .f32) (ids : IVec S5000x1 32) (b : Fin 8) (l : Fin 128) : EReal :=
  ∑ r : Fin 5000, u (ix2 r l) * ind (ids (ix2 r 0)) (BitVec.ofNat 32 b.val)

/-- What the tile's ids add to entry b of the counts. -/
def cntAdd (ids : IVec S5000x1 32) (b : Fin 8) : EReal :=
  ∑ r : Fin 5000, ind (ids (ix2 r 0)) (BitVec.ofNat 32 b.val)

/-- The sums block after an accumulating point, as one function of the block index. -/
def sumsOver (xo : FVec Ideal S8x128 .f32) (u : FVec Ideal S5000x128 .f32) (ids : IVec S5000x1 32) : S8x128.Idx → EReal :=
  fun j => xo j + rowAdd u ids ⟨(j 0).val, idx2_lt0 j⟩ ⟨(j 1).val, idx2_lt1 j⟩

/-- The counts block after an accumulating point, as one function of the block index. -/
def cntsOver (xo : FVec Ideal S8x1 .f32) (ids : IVec S5000x1 32) : S8x1.Idx → EReal :=
  fun j => xo j + cntAdd ids ⟨(j 0).val, idx2_lt0 j⟩

theorem hz2 : (![0, 0] : Fin 2 → Nat) = fun _ => 0 := funext fun a => by fin_cases a <;> rfl

/-- The store of row b: the row's previous contents plus the tile's contribution is the block function on that row. -/
theorem row_piece (xo : FVec Ideal S8x128 .f32) (u : FVec Ideal S5000x128 .f32) (ids : IVec S5000x1 32) (b : Fin 8)
    (inb : ∀ a, (![b.val, 0] : Fin 2 → Nat) a + S1x128.size a ≤ S8x128.size a) (x : S1x128.Idx) :
    addf (shapeCast S1x128 (View.ld (Val := Elt Ideal) (S := S8x128) (e' := EltTy.f32) xo (Rect.unit (s := S8x128) ![b.val, 0] S1x128.size inb)) shapeCasts_S1x128_S1x128)
        (tileSum (BitVec.ofNat 32 b.val) u ids) x
      = sumsOver xo u ids ((Rect.unit (s := S8x128) ![b.val, 0] S1x128.size inb).emb x) := by
  obtain ⟨p, q, rfl⟩ : ∃ (p : Fin 1) (q : Fin 128), x = ix2 p q := ⟨x 0, x 1, eq_ix2 x⟩
  obtain rfl : p = 0 := Subsingleton.elim _ _
  rw [shapeCast_self]
  unfold sumsOver rowAdd
  refine (addf_apply _ _ _).trans ?_
  rw [tileSum_apply]
  have e0 : (⟨(((Rect.unit (s := S8x128) ![b.val, 0] S1x128.size inb).emb (ix2 0 q)) 0).val, idx2_lt0 _⟩ : Fin 8) = b :=
    Fin.ext (by show b.val + 1 * 0 = b.val; omega)
  have e1 : (⟨(((Rect.unit (s := S8x128) ![b.val, 0] S1x128.size inb).emb (ix2 0 q)) 1).val, idx2_lt1 _⟩ : Fin 128) = q :=
    Fin.ext (by show 0 + 1 * q.val = q.val; omega)
  rw [e0, e1]
  rfl

/-- The identity shape cast the body puts on the id column. -/
theorem pay6_eq (x2 : Vec Ideal S5000x1 .i32) : k0_pay6 (F := Ideal) x2 = x2 := shapeCast_self _ _

/-- CASE B, the sums: every row b of the block gains the tile's contribution to segment b. -/
theorem out_B3 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S8x128 .f32) (h4 : a4.IsWhole) (a5 : Memref sig .tc .vmem S8x1 .f32) (h5 : a5.IsWhole)
    (hc : ¬cond0_0 i) (x0 x1 : Vec Ideal S5000x128 .f32) (x2 : Vec Ideal S5000x1 .i32)
    (xo3 : Vec Ideal S8x128 .f32) (xo4 : Vec Ideal S8x1 .f32) :
    out0_B_3 c i a1 h1 a2 h2 a3 h3 a4 h4 a5 h5 hc x0 x1 x2 xo3 xo4 = sumsOver xo3 (addf x0 x1) x2 := by
  have key : out0_B_3 c i a1 h1 a2 h2 a3 h3 a4 h4 a5 h5 hc x0 x1 x2 xo3 xo4
      = sumsOver xo3 (addf x0 x1) (k0_pay6 (F := Ideal) x2) := by
    funext y
    unfold out0_B_3
    rw [View.read_writes_eq_canon _ _ _ (cover0_B_3 c i a1 h1 a2 h2 a3 h3 a4 h4 a5 h5 hc x0 x1 x2 xo3 xo4)]
    refine View.canon_apply_of_pieces (sumsOver xo3 (addf x0 x1) (k0_pay6 (F := Ideal) x2)) _ ?_ y
      (cover0_B_3 c i a1 h1 a2 h2 a3 h3 a4 h4 a5 h5 hc x0 x1 x2 xo3 xo4 y)
    unfold kernelRun0_B
    dsimp only
    sl_unfold_words
    simp only [View.readAt_eq_ld, h1.read_unread, h2.read_unread, h3.read_unread, h4.read_unread,
      View.ld_unit_zero (S := S5000x128) hz2, View.ld_unit_zero (S := S5000x1) hz2]
    intro p hp
    simp only [List.mem_cons, List.mem_nil_iff, or_false] at hp
    rcases hp with rfl | rfl | rfl | rfl | rfl | rfl | rfl | rfl
    · exact row_piece xo3 (addf x0 x1) (k0_pay6 (F := Ideal) x2) 7 _
    · exact row_piece xo3 (addf x0 x1) (k0_pay6 (F := Ideal) x2) 6 _
    · exact row_piece xo3 (addf x0 x1) (k0_pay6 (F := Ideal) x2) 5 _
    · exact row_piece xo3 (addf x0 x1) (k0_pay6 (F := Ideal) x2) 4 _
    · exact row_piece xo3 (addf x0 x1) (k0_pay6 (F := Ideal) x2) 3 _
    · exact row_piece xo3 (addf x0 x1) (k0_pay6 (F := Ideal) x2) 2 _
    · exact row_piece xo3 (addf x0 x1) (k0_pay6 (F := Ideal) x2) 1 _
    · exact row_piece xo3 (addf x0 x1) (k0_pay6 (F := Ideal) x2) 0 _
  rw [key, pay6_eq]

/-- The store of entry b of the counts: the entry's previous contents plus the tile's count is the block function there. -/
theorem cnt_piece (xo : FVec Ideal S8x1 .f32) (ids : IVec S5000x1 32) (b : Fin 8)
    (inb : ∀ a, (![b.val, 0] : Fin 2 → Nat) a + S1x1.size a ≤ S8x1.size a) (x : S1x1.Idx) :
    addf (shapeCast S1x1 (View.ld (Val := Elt Ideal) (S := S8x1) (e' := EltTy.f32) xo (Rect.unit (s := S8x1) ![b.val, 0] S1x1.size inb)) shapeCasts_S1x1_S1x1)
        (tileCount (F := Ideal) (BitVec.ofNat 32 b.val) ids) x
      = cntsOver xo ids ((Rect.unit (s := S8x1) ![b.val, 0] S1x1.size inb).emb x) := by
  obtain ⟨p, q, rfl⟩ : ∃ (p : Fin 1) (q : Fin 1), x = ix2 p q := ⟨x 0, x 1, eq_ix2 x⟩
  obtain rfl : p = 0 := Subsingleton.elim _ _
  obtain rfl : q = 0 := Subsingleton.elim _ _
  rw [shapeCast_self]
  unfold cntsOver cntAdd
  refine (addf_apply _ _ _).trans ?_
  rw [tileCount_apply]
  have e0 : (⟨(((Rect.unit (s := S8x1) ![b.val, 0] S1x1.size inb).emb (ix2 0 0)) 0).val, idx2_lt0 _⟩ : Fin 8) = b :=
    Fin.ext (by show b.val + 1 * 0 = b.val; omega)
  rw [e0]
  rfl

/-- CASE B, the counts: every entry b gains the number of the tile's rows in segment b. -/
theorem out_B4 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S8x128 .f32) (h4 : a4.IsWhole) (a5 : Memref sig .tc .vmem S8x1 .f32) (h5 : a5.IsWhole)
    (hc : ¬cond0_0 i) (x0 x1 : Vec Ideal S5000x128 .f32) (x2 : Vec Ideal S5000x1 .i32)
    (xo3 : Vec Ideal S8x128 .f32) (xo4 : Vec Ideal S8x1 .f32) :
    out0_B_4 c i a1 h1 a2 h2 a3 h3 a4 h4 a5 h5 hc x0 x1 x2 xo3 xo4 = cntsOver xo4 x2 := by
  have key : out0_B_4 c i a1 h1 a2 h2 a3 h3 a4 h4 a5 h5 hc x0 x1 x2 xo3 xo4
      = cntsOver xo4 (k0_pay6 (F := Ideal) x2) := by
    funext y
    unfold out0_B_4
    rw [View.read_writes_eq_canon _ _ _ (cover0_B_4 c i a1 h1 a2 h2 a3 h3 a4 h4 a5 h5 hc x0 x1 x2 xo3 xo4)]
    refine View.canon_apply_of_pieces (cntsOver xo4 (k0_pay6 (F := Ideal) x2)) _ ?_ y
      (cover0_B_4 c i a1 h1 a2 h2 a3 h3 a4 h4 a5 h5 hc x0 x1 x2 xo3 xo4 y)
    unfold kernelRun0_B
    dsimp only
    sl_unfold_words
    simp only [View.readAt_eq_ld, h1.read_unread, h2.read_unread, h3.read_unread, h5.read_unread,
      View.ld_unit_zero (S := S5000x128) hz2, View.ld_unit_zero (S := S5000x1) hz2]
    intro p hp
    simp only [List.mem_cons, List.mem_nil_iff, or_false] at hp
    rcases hp with rfl | rfl | rfl | rfl | rfl | rfl | rfl | rfl
    · exact cnt_piece xo4 (k0_pay6 (F := Ideal) x2) 7 _
    · exact cnt_piece xo4 (k0_pay6 (F := Ideal) x2) 6 _
    · exact cnt_piece xo4 (k0_pay6 (F := Ideal) x2) 5 _
    · exact cnt_piece xo4 (k0_pay6 (F := Ideal) x2) 4 _
    · exact cnt_piece xo4 (k0_pay6 (F := Ideal) x2) 3 _
    · exact cnt_piece xo4 (k0_pay6 (F := Ideal) x2) 2 _
    · exact cnt_piece xo4 (k0_pay6 (F := Ideal) x2) 1 _
    · exact cnt_piece xo4 (k0_pay6 (F := Ideal) x2) 0 _
  rw [key, pay6_eq]

/-- A row's index is the image of the row's local index under the row's rectangle. -/
theorem row_emb (b : Fin 8) (inb : ∀ a, (![b.val, 0] : Fin 2 → Nat) a + S1x128.size a ≤ S8x128.size a) (q : Fin 128) :
    (Rect.unit (s := S8x128) ![b.val, 0] S1x128.size inb).emb (ix2 (0 : Fin 1) q) = ix2 b q :=
  funext fun a => Fin.ext (match a with
    | ⟨0, _⟩ => by show b.val + 1 * 0 = b.val; omega
    | ⟨1, _⟩ => by show 0 + 1 * q.val = q.val; omega)

/-- A store of row b over earlier stores: on row b its payload, elsewhere what the earlier stores left. -/
theorem canon_row_cons (L : List (View.Piece (Elt Ideal) S8x128 .f32)) (b : Fin 8)
    (inb : ∀ a, (![b.val, 0] : Fin 2 → Nat) a + S1x128.size a ≤ S8x128.size a) (w : S1x128.Idx → EReal)
    (p : Fin 8) (q : Fin 128) :
    View.canon ((⟨Rect.unit (s := S8x128) ![b.val, 0] S1x128.size inb, w⟩ : View.Piece (Elt Ideal) S8x128 .f32) :: L) (ix2 p q)
      = if p.val = b.val then w (ix2 0 q) else View.canon L (ix2 p q) := by
  by_cases hp : p.val = b.val
  · obtain rfl : p = b := Fin.ext hp
    rw [if_pos rfl]
    have key := View.canon_cons_emb (Val := Elt Ideal) (Rect.unit (s := S8x128) ![p.val, 0] S1x128.size inb) w L (ix2 (0 : Fin 1) q)
    rw [row_emb] at key
    exact key
  · rw [if_neg hp]
    have hn : ix2 p q ∉ (Rect.unit (s := S8x128) ![b.val, 0] S1x128.size inb).set := by
      rw [Rect.mem_set_unit]
      intro h
      have h0 : b.val ≤ p.val ∧ p.val < b.val + 1 := h 0
      omega
    exact View.canon_cons_of_not_mem (Val := Elt Ideal)
      (⟨Rect.unit (s := S8x128) ![b.val, 0] S1x128.size inb, w⟩ : View.Piece (Elt Ideal) S8x128 .f32) L hn

/-- One more row store over earlier stores, when the row's previous contents are read back from those stores: if the
    earlier stores left Z plus the contributions of the rows below b, these leave Z plus those of the rows up to b. -/
theorem canon_row_step {sg : RefSig} {κ : Kind} {sp : Space} (v : View sg κ sp S8x128 .f32)
    (L : List (View.Piece (Elt Ideal) S8x128 .f32)) (Z : FVec Ideal S8x128 .f32)
    (u : FVec Ideal S5000x128 .f32) (ids : IVec S5000x1 32) (b : Fin 8)
    (inb : ∀ a, (![b.val, 0] : Fin 2 → Nat) a + S1x128.size a ≤ S8x128.size a)
    (hL : ∀ (p : Fin 8) (q : Fin 128), View.canon L (ix2 p q) = Z (ix2 p q) + (if p.val < b.val then rowAdd u ids p q else 0))
    (p : Fin 8) (q : Fin 128) :
    View.canon ((⟨Rect.unit (s := S8x128) ![b.val, 0] S1x128.size inb,
        addf (shapeCast S1x128 (v.readCov L (Rect.unit (s := S8x128) ![b.val, 0] S1x128.size inb).toLoadRect) shapeCasts_S1x128_S1x128)
          (tileSum (BitVec.ofNat 32 b.val) u ids)⟩ : View.Piece (Elt Ideal) S8x128 .f32) :: L) (ix2 p q)
      = Z (ix2 p q) + (if p.val < b.val + 1 then rowAdd u ids p q else 0) := by
  rw [View.readCov_eq_canon']
  refine (canon_row_cons L b inb _ p q).trans ?_
  by_cases hp : p.val = b.val
  · obtain rfl : p = b := Fin.ext hp
    rw [if_pos rfl]
    refine (row_piece (View.canon L) u ids p inb _).trans ?_
    rw [row_emb]
    show View.canon L (ix2 p q) + rowAdd u ids p q = _
    rw [hL, if_neg (by omega), if_pos (by omega), add_zero]
  · rw [if_neg hp, hL]
    by_cases hlt : p.val < b.val
    · rw [if_pos hlt, if_pos (by omega)]
    · rw [if_neg hlt, if_neg (by omega)]

/-- CASE A, the sums: the block is zeroed, then every row b gains the tile's contribution to segment b. -/
theorem out_A3 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S8x128 .f32) (h4 : a4.IsWhole) (a5 : Memref sig .tc .vmem S8x1 .f32) (h5 : a5.IsWhole)
    (hc : cond0_0 i) (x0 x1 : Vec Ideal S5000x128 .f32) (x2 : Vec Ideal S5000x1 .i32) :
    out0_A_3 c i a1 h1 a2 h2 a3 h3 a4 h4 a5 h5 hc x0 x1 x2 = sumsOver (k0_pay3 (F := Ideal)) (addf x0 x1) x2 := by
  have key : out0_A_3 c i a1 h1 a2 h2 a3 h3 a4 h4 a5 h5 hc x0 x1 x2
      = sumsOver (k0_pay3 (F := Ideal)) (addf x0 x1) (k0_pay6 (F := Ideal) x2) := by
    funext y
    obtain ⟨p, q, rfl⟩ : ∃ (p : Fin 8) (q : Fin 128), y = ix2 p q := ⟨y 0, y 1, eq_ix2 y⟩
    unfold out0_A_3
    rw [View.read_writes_eq_canon _ _ _ (cover0_A_3 c i a1 h1 a2 h2 a3 h3 a4 h4 a5 h5 hc x0 x1 x2)]
    unfold kernelRun0_A
    dsimp only
    sl_unfold_words
    simp only [View.readAt_eq_ld, h1.read_unread, h2.read_unread, h3.read_unread,
      View.ld_unit_zero (S := S5000x128) hz2, View.ld_unit_zero (S := S5000x1) hz2]
    refine (canon_row_step a4.view _ (k0_pay3 (F := Ideal)) (addf x0 x1) (k0_pay6 (F := Ideal) x2) 7 _ ?_ p q).trans ?_
    · refine canon_row_step a4.view _ _ _ _ 6 _ ?_
      refine canon_row_step a4.view _ _ _ _ 5 _ ?_
      refine canon_row_step a4.view _ _ _ _ 4 _ ?_
      refine canon_row_step a4.view _ _ _ _ 3 _ ?_
      refine canon_row_step a4.view _ _ _ _ 2 _ ?_
      refine canon_row_step a4.view _ _ _ _ 1 _ ?_
      refine canon_row_step a4.view _ _ _ _ 0 _ ?_
      intro p q
      rw [View.canon_unit_zero hz2, if_neg (show ¬ p.val < (0 : Fin 8).val from Nat.not_lt_zero _), add_zero]
    · rw [if_pos (show p.val < (7 : Fin 8).val + 1 from p.isLt)]
      rfl
  rw [key, pay6_eq]

/-- An entry's index in the counts column is the image of the one local index under the entry's rectangle. -/
theorem cnt_emb (b : Fin 8) (inb : ∀ a, (![b.val, 0] : Fin 2 → Nat) a + S1x1.size a ≤ S8x1.size a) :
    (Rect.unit (s := S8x1) ![b.val, 0] S1x1.size inb).emb (ix2 (0 : Fin 1) (0 : Fin 1)) = ix2 b (0 : Fin 1) :=
  funext fun a => Fin.ext (match a with
    | ⟨0, _⟩ => by show b.val + 1 * 0 = b.val; omega
    | ⟨1, _⟩ => by show 0 + 1 * 0 = 0; omega)

/-- A store of entry b of the counts over earlier stores: at entry b its payload, elsewhere what the earlier stores left. -/
theorem canon_cnt_cons (L : List (View.Piece (Elt Ideal) S8x1 .f32)) (b : Fin 8)
    (inb : ∀ a, (![b.val, 0] : Fin 2 → Nat) a + S1x1.size a ≤ S8x1.size a) (w : S1x1.Idx → EReal) (p : Fin 8) :
    View.canon ((⟨Rect.unit (s := S8x1) ![b.val, 0] S1x1.size inb, w⟩ : View.Piece (Elt Ideal) S8x1 .f32) :: L) (ix2 p (0 : Fin 1))
      = if p.val = b.val then w (ix2 0 0) else View.canon L (ix2 p (0 : Fin 1)) := by
  by_cases hp : p.val = b.val
  · obtain rfl : p = b := Fin.ext hp
    rw [if_pos rfl]
    have key := View.canon_cons_emb (Val := Elt Ideal) (Rect.unit (s := S8x1) ![p.val, 0] S1x1.size inb) w L (ix2 (0 : Fin 1) (0 : Fin 1))
    rw [cnt_emb] at key
    exact key
  · rw [if_neg hp]
    have hn : ix2 p (0 : Fin 1) ∉ (Rect.unit (s := S8x1) ![b.val, 0] S1x1.size inb).set := by
      rw [Rect.mem_set_unit]
      intro h
      have h0 : b.val ≤ p.val ∧ p.val < b.val + 1 := h 0
      omega
    exact View.canon_cons_of_not_mem (Val := Elt Ideal)
      (⟨Rect.unit (s := S8x1) ![b.val, 0] S1x1.size inb, w⟩ : View.Piece (Elt Ideal) S8x1 .f32) L hn

/-- One more entry store over earlier stores, the entry's previous contents read back from those stores: if the earlier
    stores left Z plus the counts of the segments below b, these leave Z plus those of the segments up to b. -/
theorem canon_cnt_step {sg : RefSig} {κ : Kind} {sp : Space} (v : View sg κ sp S8x1 .f32)
    (L : List (View.Piece (Elt Ideal) S8x1 .f32)) (Z : FVec Ideal S8x1 .f32) (ids : IVec S5000x1 32) (b : Fin 8)
    (inb : ∀ a, (![b.val, 0] : Fin 2 → Nat) a + S1x1.size a ≤ S8x1.size a)
    (hL : ∀ p : Fin 8, View.canon L (ix2 p (0 : Fin 1)) = Z (ix2 p (0 : Fin 1)) + (if p.val < b.val then cntAdd ids p else 0))
    (p : Fin 8) :
    View.canon ((⟨Rect.unit (s := S8x1) ![b.val, 0] S1x1.size inb,
        addf (shapeCast S1x1 (v.readCov L (Rect.unit (s := S8x1) ![b.val, 0] S1x1.size inb).toLoadRect) shapeCasts_S1x1_S1x1)
          (tileCount (F := Ideal) (BitVec.ofNat 32 b.val) ids)⟩ : View.Piece (Elt Ideal) S8x1 .f32) :: L) (ix2 p (0 : Fin 1))
      = Z (ix2 p (0 : Fin 1)) + (if p.val < b.val + 1 then cntAdd ids p else 0) := by
  rw [View.readCov_eq_canon']
  refine (canon_cnt_cons L b inb _ p).trans ?_
  by_cases hp : p.val = b.val
  · obtain rfl : p = b := Fin.ext hp
    rw [if_pos rfl]
    refine (cnt_piece (View.canon L) ids p inb _).trans ?_
    rw [cnt_emb]
    show View.canon L (ix2 p (0 : Fin 1)) + cntAdd ids p = _
    rw [hL, if_neg (by omega), if_pos (by omega), add_zero]
  · rw [if_neg hp, hL]
    by_cases hlt : p.val < b.val
    · rw [if_pos hlt, if_pos (by omega)]
    · rw [if_neg hlt, if_neg (by omega)]

/-- CASE A, the counts: the column is zeroed, then every entry b gains the number of the tile's rows in segment b. -/
theorem out_A4 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S8x128 .f32) (h4 : a4.IsWhole) (a5 : Memref sig .tc .vmem S8x1 .f32) (h5 : a5.IsWhole)
    (hc : cond0_0 i) (x0 x1 : Vec Ideal S5000x128 .f32) (x2 : Vec Ideal S5000x1 .i32) :
    out0_A_4 c i a1 h1 a2 h2 a3 h3 a4 h4 a5 h5 hc x0 x1 x2 = cntsOver (k0_pay4 (F := Ideal)) x2 := by
  have key : out0_A_4 c i a1 h1 a2 h2 a3 h3 a4 h4 a5 h5 hc x0 x1 x2
      = cntsOver (k0_pay4 (F := Ideal)) (k0_pay6 (F := Ideal) x2) := by
    funext y
    obtain ⟨p, q, rfl⟩ : ∃ (p : Fin 8) (q : Fin 1), y = ix2 p q := ⟨y 0, y 1, eq_ix2 y⟩
    obtain rfl : q = 0 := Subsingleton.elim _ _
    unfold out0_A_4
    rw [View.read_writes_eq_canon _ _ _ (cover0_A_4 c i a1 h1 a2 h2 a3 h3 a4 h4 a5 h5 hc x0 x1 x2)]
    unfold kernelRun0_A
    dsimp only
    sl_unfold_words
    simp only [View.readAt_eq_ld, h1.read_unread, h2.read_unread, h3.read_unread,
      View.ld_unit_zero (S := S5000x128) hz2, View.ld_unit_zero (S := S5000x1) hz2]
    refine (canon_cnt_step a5.view _ (k0_pay4 (F := Ideal)) (k0_pay6 (F := Ideal) x2) 7 _ ?_ p).trans ?_
    · refine canon_cnt_step a5.view _ _ _ 6 _ ?_
      refine canon_cnt_step a5.view _ _ _ 5 _ ?_
      refine canon_cnt_step a5.view _ _ _ 4 _ ?_
      refine canon_cnt_step a5.view _ _ _ 3 _ ?_
      refine canon_cnt_step a5.view _ _ _ 2 _ ?_
      refine canon_cnt_step a5.view _ _ _ 1 _ ?_
      refine canon_cnt_step a5.view _ _ _ 0 _ ?_
      intro p
      rw [View.canon_unit_zero hz2, if_neg (show ¬ p.val < (0 : Fin 8).val from Nat.not_lt_zero _), add_zero]
    · rw [if_pos (show p.val < (7 : Fin 8).val + 1 from p.isLt)]
      rfl
  rw [key, pay6_eq]

/-! ## Tiles and rows: a tile's block element is an array element -/

/-- The three input blocks of tile t and the three arrays, at their literal types. -/
abbrev blk0 (c : Dev nD) (t : Fin cfg0.N) : Vec Ideal S5000x128 .f32 := iblk0 V c 0 t
abbrev blk1 (c : Dev nD) (t : Fin cfg0.N) : Vec Ideal S5000x128 .f32 := iblk0 V c 1 t
abbrev blk2 (c : Dev nD) (t : Fin cfg0.N) : Vec Ideal S5000x1 .i32 := iblk0 V c 2 t
abbrev arr0 (c : Dev nD) : Vec Ideal S500000x128 .f32 := V c main_arg0
abbrev arr1 (c : Dev nD) : Vec Ideal S500000x128 .f32 := V c main_arg1
abbrev arr2 (c : Dev nD) : Vec Ideal S500000x1 .i32 := V c main_v0

/-- Every input window's block index at tile t is (t, 0). -/
theorem idx_in : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- Row r of tile t is row 5000·t + r of the array. -/
theorem blk0_apply (c : Dev nD) (t : Fin cfg0.N) (r : Fin 5000) (l : Fin 128) (n : Fin 500000)
    (hn : n.val = 5000 * t.val + r.val) : blk0 V c t (ix2 r l) = arr0 V c (ix2 n l) := by
  unfold blk0 iblk0
  rw [View.read_apply]
  show V c main_arg0 _ = V c main_arg0 _
  congr 1
  funext a
  apply Fin.ext
  match a with
  | ⟨0, _⟩ => show win0_0.index t 0 * 5000 + 1 * r.val = n.val; rw [(idx_in t).1.1, hn]; omega
  | ⟨1, _⟩ => show win0_0.index t 1 * 128 + 1 * l.val = l.val; rw [(idx_in t).1.2]; omega

theorem blk1_apply (c : Dev nD) (t : Fin cfg0.N) (r : Fin 5000) (l : Fin 128) (n : Fin 500000)
    (hn : n.val = 5000 * t.val + r.val) : blk1 V c t (ix2 r l) = arr1 V c (ix2 n l) := by
  unfold blk1 iblk0
  rw [View.read_apply]
  show V c main_arg1 _ = V c main_arg1 _
  congr 1
  funext a
  apply Fin.ext
  match a with
  | ⟨0, _⟩ => show win0_1.index t 0 * 5000 + 1 * r.val = n.val; rw [(idx_in t).2.1.1, hn]; omega
  | ⟨1, _⟩ => show win0_1.index t 1 * 128 + 1 * l.val = l.val; rw [(idx_in t).2.1.2]; omega

theorem blk2_apply (c : Dev nD) (t : Fin cfg0.N) (r : Fin 5000) (n : Fin 500000)
    (hn : n.val = 5000 * t.val + r.val) : blk2 V c t (ix2 r (0 : Fin 1)) = arr2 V c (ix2 n (0 : Fin 1)) := by
  unfold blk2 iblk0
  rw [View.read_apply]
  show V c main_v0 _ = V c main_v0 _
  congr 1
  funext a
  apply Fin.ext
  match a with
  | ⟨0, _⟩ => show win0_2.index t 0 * 5000 + 1 * r.val = n.val; rw [(idx_in t).2.2.1, hn]; omega
  | ⟨1, _⟩ => show win0_2.index t 1 * 1 + 1 * 0 = 0; rw [(idx_in t).2.2.2]

/-! ## The outputs after each tile -/

/-- Row n's term of segment b at lane l, as a function of the row's NUMBER (0 past the last row): (x0 + x1)(n, l) where
    row n's id is the word of b. -/
def rowTerm (c : Dev nD) (b : Fin 8) (l : Fin 128) (n : ℕ) : EReal :=
  if h : n < 500000 then
    (arr0 V c (ix2 ⟨n, h⟩ l) + arr1 V c (ix2 ⟨n, h⟩ l)) * ind (arr2 V c (ix2 ⟨n, h⟩ (0 : Fin 1))) (BitVec.ofNat 32 b.val)
  else 0

/-- Row n's term of segment b's count. -/
def cntTerm (c : Dev nD) (b : Fin 8) (n : ℕ) : EReal :=
  if h : n < 500000 then ind (arr2 V c (ix2 ⟨n, h⟩ (0 : Fin 1))) (BitVec.ofNat 32 b.val) else 0

/-- A tile's contribution to a segment's row is the sum of its 5000 rows' terms. -/
theorem rowAdd_tile (c : Dev nD) (t : Fin cfg0.N) (b : Fin 8) (l : Fin 128) :
    rowAdd (addf (blk0 V c t) (blk1 V c t)) (blk2 V c t) b l
      = ∑ r ∈ Finset.range 5000, rowTerm V c b l (5000 * t.val + r) := by
  have hN : t.val < 100 := Nat.lt_of_lt_of_eq t.isLt N_0
  rw [Finset.sum_range]
  unfold rowAdd
  refine Finset.sum_congr rfl fun r _ => ?_
  have hlt : 5000 * t.val + r.val < 500000 := by have := r.isLt; omega
  unfold rowTerm
  rw [dif_pos hlt]
  show (blk0 V c t (ix2 r l) + blk1 V c t (ix2 r l)) * ind (blk2 V c t (ix2 r (0 : Fin 1))) _ = _
  rw [blk0_apply V c t r l ⟨_, hlt⟩ rfl, blk1_apply V c t r l ⟨_, hlt⟩ rfl, blk2_apply V c t r ⟨_, hlt⟩ rfl]

/-- A tile's contribution to a segment's count is the sum of its 5000 rows' terms. -/
theorem cntAdd_tile (c : Dev nD) (t : Fin cfg0.N) (b : Fin 8) :
    cntAdd (blk2 V c t) b = ∑ r ∈ Finset.range 5000, cntTerm V c b (5000 * t.val + r) := by
  have hN : t.val < 100 := Nat.lt_of_lt_of_eq t.isLt N_0
  rw [Finset.sum_range]
  unfold cntAdd
  refine Finset.sum_congr rfl fun r _ => ?_
  have hlt : 5000 * t.val + r.val < 500000 := by have := r.isLt; omega
  unfold cntTerm
  rw [dif_pos hlt, blk2_apply V c t r ⟨_, hlt⟩ rfl]

/-- The first tile: both outputs are zeroed, then gain the tile's contributions. -/
theorem outs_first (c : Dev nD) (t : Fin cfg0.N) (h0 : t.val % 100 = 0) :
    outsAt0 V c t.val t.isLt
      = (sumsOver (k0_pay3 (F := Ideal)) (addf (blk0 V c t) (blk1 V c t)) (blk2 V c t),
         cntsOver (k0_pay4 (F := Ideal)) (blk2 V c t)) := by
  rw [outsAt0_A V c t h0]
  exact congrArg₂ Prod.mk
    (out_A3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t))
    (out_A4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t))

/-- Every later tile: both outputs gain the tile's contributions over what the tile before left. -/
theorem outs_next (c : Dev nD) (t : Fin cfg0.N) (h0 : ¬t.val % 100 = 0) :
    outsAt0 V c t.val t.isLt
      = (sumsOver (outsAt0 V c (t.val - 1) (Nat.lt_of_le_of_lt (Nat.sub_le _ _) t.isLt)).1 (addf (blk0 V c t) (blk1 V c t)) (blk2 V c t),
         cntsOver (outsAt0 V c (t.val - 1) (Nat.lt_of_le_of_lt (Nat.sub_le _ _) t.isLt)).2 (blk2 V c t)) := by
  rw [outsAt0_B V c t h0]
  exact congrArg₂ Prod.mk
    (out_B3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2)
    (out_B4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2)

/-- The reset stores zeros. -/
theorem zero3_apply (j : S8x128.Idx) : k0_pay3 (F := Ideal) j = 0 := Ideal.ofBits_zero_f32
theorem zero4_apply (j : S8x1.Idx) : k0_pay4 (F := Ideal) j = 0 := Ideal.ofBits_zero_f32

/-- THE INVARIANT, sums: after tile n the block holds, at (b, l), the sum of the terms of the first 5000·(n+1) rows. -/
theorem sums_inv (c : Dev nD) (b : Fin 8) (l : Fin 128) :
    ∀ (n : ℕ) (hn : n < cfg0.N),
      (outsAt0 V c n hn).1 (ix2 b l) = ∑ m ∈ Finset.range (5000 * (n + 1)), rowTerm V c b l m
  | 0, hn => by
    rw [outs_first V c ⟨0, hn⟩ rfl]
    show k0_pay3 (F := Ideal) (ix2 b l)
      + rowAdd (addf (blk0 V c ⟨0, hn⟩) (blk1 V c ⟨0, hn⟩)) (blk2 V c ⟨0, hn⟩) b l = _
    rw [zero3_apply, zero_add, rowAdd_tile]
    exact Finset.sum_congr rfl fun r _ => congrArg (rowTerm V c b l) (by show 5000 * 0 + r = r; omega)
  | n + 1, hn => by
    have hN : cfg0.N = 100 := N_0
    have hB : ¬(⟨n + 1, hn⟩ : Fin cfg0.N).val % 100 = 0 := by dsimp only; omega
    rw [outs_next V c ⟨n + 1, hn⟩ hB]
    show (outsAt0 V c n _).1 (ix2 b l)
      + rowAdd (addf (blk0 V c ⟨n + 1, hn⟩) (blk1 V c ⟨n + 1, hn⟩)) (blk2 V c ⟨n + 1, hn⟩) b l = _
    rw [sums_inv c b l n, rowAdd_tile,
      show 5000 * (n + 1 + 1) = 5000 * (n + 1) + 5000 from by ring, Finset.sum_range_add]

/-- THE INVARIANT, counts: after tile n entry b holds the number of rows of segment b among the first 5000·(n+1). -/
theorem cnts_inv (c : Dev nD) (b : Fin 8) :
    ∀ (n : ℕ) (hn : n < cfg0.N),
      (outsAt0 V c n hn).2 (ix2 b (0 : Fin 1)) = ∑ m ∈ Finset.range (5000 * (n + 1)), cntTerm V c b m
  | 0, hn => by
    rw [outs_first V c ⟨0, hn⟩ rfl]
    show k0_pay4 (F := Ideal) (ix2 b (0 : Fin 1)) + cntAdd (blk2 V c ⟨0, hn⟩) b = _
    rw [zero4_apply, zero_add, cntAdd_tile]
    exact Finset.sum_congr rfl fun r _ => congrArg (cntTerm V c b) (by show 5000 * 0 + r = r; omega)
  | n + 1, hn => by
    have hN : cfg0.N = 100 := N_0
    have hB : ¬(⟨n + 1, hn⟩ : Fin cfg0.N).val % 100 = 0 := by dsimp only; omega
    rw [outs_next V c ⟨n + 1, hn⟩ hB]
    show (outsAt0 V c n _).2 (ix2 b (0 : Fin 1)) + cntAdd (blk2 V c ⟨n + 1, hn⟩) b = _
    rw [cnts_inv c b n, cntAdd_tile,
      show 5000 * (n + 1 + 1) = 5000 * (n + 1) + 5000 from by ring, Finset.sum_range_add]

/-- The tiles exhaust the rows: after the last tile the sums are the specification's. -/
theorem sums_last (c : Dev nD) (hn : 99 < cfg0.N) :
    (outsAt0 V c 99 hn).1 = Cert.Spec.segSum (V c main_arg0) (V c main_arg1) (V c main_v0) := by
  funext y
  obtain ⟨b, l, rfl⟩ : ∃ (b : Fin 8) (l : Fin 128), y = ix2 b l := ⟨y 0, y 1, eq_ix2 y⟩
  rw [sums_inv V c b l 99 hn, Finset.sum_range]
  show _ = Cert.Spec.segSumAt (V c main_arg0) (V c main_arg1) (V c main_v0) b l
  unfold Cert.Spec.segSumAt
  refine Finset.sum_congr rfl fun n _ => ?_
  unfold rowTerm ind
  rw [dif_pos n.isLt]
  show (arr0 V c (ix2 n l) + arr1 V c (ix2 n l)) * (if arr2 V c (ix2 n (0 : Fin 1)) = BitVec.ofNat 32 b.val then 1 else 0)
    = (if arr2 V c (ix2 n (0 : Fin 1)) = BitVec.ofNat 32 b.val then arr0 V c (ix2 n l) + arr1 V c (ix2 n l) else 0)
  by_cases h : arr2 V c (ix2 n (0 : Fin 1)) = BitVec.ofNat 32 b.val
  · rw [if_pos h, if_pos h, mul_one]
  · rw [if_neg h, if_neg h, mul_zero]

/-- … and the counts are the specification's. -/
theorem cnts_last (c : Dev nD) (hn : 99 < cfg0.N) :
    (outsAt0 V c 99 hn).2 = Cert.Spec.segCount (V c main_v0) := by
  funext y
  obtain ⟨b, z, rfl⟩ : ∃ (b : Fin 8) (z : Fin 1), y = ix2 b z := ⟨y 0, y 1, eq_ix2 y⟩
  obtain rfl : z = 0 := Subsingleton.elim _ _
  rw [cnts_inv V c b 99 hn, Finset.sum_range]
  show _ = Cert.Spec.segCountAt (V c main_v0) b
  unfold Cert.Spec.segCountAt
  refine Finset.sum_congr rfl fun n _ => ?_
  unfold cntTerm ind
  rw [dif_pos n.isLt]

/-! ## The arrays after the run -/

/-- Both outputs' block index is (0, 0) at every tile: the block is the whole array. -/
theorem idx_out : ∀ t : Fin cfg0.N, (win0_3.index t 0 = 0 ∧ win0_3.index t 1 = 0)
    ∧ (win0_4.index t 0 = 0 ∧ win0_4.index t 1 = 0) :=
  (by decide +kernel : ∀ t : Fin grid0.N, (win0_3.index t 0 = 0 ∧ win0_3.index t 1 = 0)
    ∧ (win0_4.index t 0 = 0 ∧ win0_4.index t 1 = 0))

/-- The last tile. -/
abbrev tLast : Fin cfg0.N := ⟨99, by rw [show cfg0.N = 100 from N_0]; decide⟩

/-- A write-back happens at the last tile only. -/
theorem eq_last_of_flush3 (t : Fin cfg0.N) (hf : (cfg0.win 3).flush t = true) : t = tLast := by
  have hN : cfg0.N = 100 := N_0
  have h := (flush0_3 t).mp hf
  have := t.isLt
  exact Fin.ext (by show t.val = 99; omega)

theorem eq_last_of_flush4 (t : Fin cfg0.N) (hf : (cfg0.win 4).flush t = true) : t = tLast := by
  have hN : cfg0.N = 100 := N_0
  have h := (flush0_4 t).mp hf
  have := t.isLt
  exact Fin.ext (by show t.val = 99; omega)

/-- Output 3's block read off any contents of its array is those contents. -/
theorem blk3_read (t : Fin cfg0.N) (G : Vec Ideal S8x128 .f32) :
    ((cfg0.win 3).blk t).view.read (Elt Ideal) G = G := by
  funext y
  obtain ⟨p, q, rfl⟩ : ∃ (p : Fin 8) (q : Fin 128), y = ix2 p q := ⟨y 0, y 1, eq_ix2 y⟩
  rw [View.read_apply]
  show G _ = G _
  congr 1
  funext a
  apply Fin.ext
  match a with
  | ⟨0, _⟩ => show win0_3.index t 0 * 8 + 1 * p.val = p.val; rw [(idx_out t).1.1]; omega
  | ⟨1, _⟩ => show win0_3.index t 1 * 128 + 1 * q.val = q.val; rw [(idx_out t).1.2]; omega

theorem blk4_read (t : Fin cfg0.N) (G : Vec Ideal S8x1 .f32) :
    ((cfg0.win 4).blk t).view.read (Elt Ideal) G = G := by
  funext y
  obtain ⟨p, q, rfl⟩ : ∃ (p : Fin 8) (q : Fin 1), y = ix2 p q := ⟨y 0, y 1, eq_ix2 y⟩
  rw [View.read_apply]
  show G _ = G _
  congr 1
  funext a
  apply Fin.ext
  match a with
  | ⟨0, _⟩ => show win0_4.index t 0 * 8 + 1 * p.val = p.val; rw [(idx_out t).2.1]; omega
  | ⟨1, _⟩ => show win0_4.index t 1 * 1 + 1 * q.val = q.val; rw [(idx_out t).2.2]; omega

/-- Every index of output 3's array lies in the last tile's block. -/
theorem mem_blk3 (i : S8x128.Idx) : i ∈ ((cfg0.win 3).blk tLast).view.set := by
  show i ∈ ((View.whole main_v1_0).slice (win0_3.rect tLast)).set
  rw [View.set_slice_whole, Rect.mem_set_unit]
  intro a
  match a with
  | ⟨0, _⟩ =>
    show win0_3.index tLast 0 * 8 ≤ (i 0 : Nat) ∧ (i 0 : Nat) < win0_3.index tLast 0 * 8 + 8
    rw [(idx_out tLast).1.1]; have := idx2_lt0 i; omega
  | ⟨1, _⟩ =>
    show win0_3.index tLast 1 * 128 ≤ (i 1 : Nat) ∧ (i 1 : Nat) < win0_3.index tLast 1 * 128 + 128
    rw [(idx_out tLast).1.2]; have := idx2_lt1 i; omega

theorem mem_blk4 (i : S8x1.Idx) : i ∈ ((cfg0.win 4).blk tLast).view.set := by
  show i ∈ ((View.whole main_v1_1).slice (win0_4.rect tLast)).set
  rw [View.set_slice_whole, Rect.mem_set_unit]
  intro a
  match a with
  | ⟨0, _⟩ =>
    show win0_4.index tLast 0 * 8 ≤ (i 0 : Nat) ∧ (i 0 : Nat) < win0_4.index tLast 0 * 8 + 8
    rw [(idx_out tLast).2.1]; have := idx2_lt0 i; omega
  | ⟨1, _⟩ =>
    show win0_4.index tLast 1 * 1 ≤ (i 1 : Nat) ∧ (i 1 : Nat) < win0_4.index tLast 1 * 1 + 1
    rw [(idx_out tLast).2.2]; have := idx2_lt1 i; omega

/-- After the first pass the first output holds the per-segment sums of x0 + x1. -/
theorem segs_final (c : Dev nD) :
    (dat0 (F := Ideal) V c).arrAt 3 cfg0.N = Cert.Spec.segSum (V c main_arg0) (V c main_arg1) (V c main_v0) := by
  refine (dat0 (F := Ideal) V c).arrAt_eq_of_cover 3 _ (fun t hf => ?_) fun i => ⟨tLast, (flush0_3 tLast).mpr rfl, mem_blk3 i⟩
  obtain rfl := eq_last_of_flush3 t hf
  rw [blk3_read]
  show (cfg0.win 3).cut (grid0.coords tLast) ((dat0 (F := Ideal) V c).after 3 tLast) = _
  rw [after0_3]
  exact sums_last V c tLast.isLt

/-- After the first pass the second output holds the per-segment row counts. -/
theorem counts_final (c : Dev nD) :
    (dat0 (F := Ideal) V c).arrAt 4 cfg0.N = Cert.Spec.segCount (V c main_v0) := by
  refine (dat0 (F := Ideal) V c).arrAt_eq_of_cover 4 _ (fun t hf => ?_) fun i => ⟨tLast, (flush0_4 tLast).mpr rfl, mem_blk4 i⟩
  obtain rfl := eq_last_of_flush4 t hf
  rw [blk4_read]
  show (cfg0.win 4).cut (grid0.coords tLast) ((dat0 (F := Ideal) V c).after 4 tLast) = _
  rw [after0_4]
  exact cnts_last V c tLast.isLt

end Cert.KernelIdeal.Reduce

end
-- ==== Proof.CombineValue.lean ====
/-
  The second pass: row n, lane c of its output is Σ_b [id n = b] · (x0 n c · a3 b c + x1 n c · a5 b c),
  accumulated from zero over the eight segments; each row tile writes its own 5000 rows, and the 100 tiles
  cover the array.

  In three steps. (i) Inside one tile: the stored block is the zero block plus, for b = 0 … 7 in order, the block
  "indicator column of id = b, spread over the 128 lanes, times (x0 · row b of a3 + x1 · row b of a5)"; read at
  row r and lane c, the indicator column is 1 or 0, a weight row spread over the rows is the table's entry (b, c),
  and the eight additions onto zero are the sum over the eight segments. (ii) Tile t's blocks of the two feature
  arrays and of the id column are rows 5000·t … 5000·t + 4999 of those arrays; its blocks of the two weight tables
  are the tables. (iii) So tile t writes back rows 5000·t … 5000·t + 4999 of the combination, and row n of the
  array lies in the block of tile n / 5000.
-/
import proofs.«424673_j84559316123982_1_alg».proof.Proof.Gen.KernelIdeal.Frame
import proofs.«424673_j84559316123982_1_alg».proof.Proof.Spec
import Idealize.ShloMosaic.Lib.Pipeline.Value
import Idealize.ShloMosaic.Lib.ValueLayout
import Idealize.ShloMosaic.PureOps.Ideal.Laws

noncomputable section

namespace Cert.KernelIdeal.Combine

open Cert.KernelIdeal Cert.KernelIdeal.Gen Idealize.ShloMosaic Idealize.ShloMosaic.TcCoe Idealize.SL.Sem
open Idealize.ShloMosaic.ValueIdx

/-! ## Inside one tile -/

/-- The one-bit answer of an equality test on two id words, widened to a word and read as a signed integer, is 1
    when the words are equal and 0 otherwise. -/
theorem indicator_word (a w : BitVec 32) :
    ((((IntOp.cmpi .eq a w).setWidth 32).toInt : ℝ) : EReal) = if a = w then (1 : EReal) else 0 := by
  by_cases h : a = w
  · subst h
    rw [if_pos rfl]
    have : IntOp.cmpi .eq a a = 1#1 := by
      unfold IntOp.cmpi
      rw [show (a == a) = true from beq_self_eq_true a]
      rfl
    rw [this]
    norm_num
  · rw [if_neg h]
    have : IntOp.cmpi .eq a w = 0#1 := by
      unfold IntOp.cmpi
      rw [show (a == w) = false from beq_eq_false_iff_ne.mpr h]
      rfl
    rw [this]
    norm_num

/-- A column [a,1] spread over b lanes reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-block access, however spelt. -/
theorem hz : (![0, 0] : Fin 2 → Nat) = fun _ => 0 := funext fun a => by fin_cases a <;> rfl

/-- One segment's contribution as a block: the indicator column of "the row's id is the word w", spread over the
    lanes, times the weighted pair of the two feature blocks with the segment's two weight rows. -/
def seg (x0 x1 : Vec Ideal S5000x128 .f32) (ids : IVec S5000x1 32) (w : BitVec 32)
    (a0 a1 : Vec Ideal S1x128 .f32) : FVec Ideal S5000x128 .f32 :=
  mulf (broadcastTo S5000x128 (sitofp (F := Ideal) .f32 (extui 32 (cmpi .eq ids (broadcast S5000x1 w)) natLt_1_32)) broadcasts_S5000x1_S5000x128)
       (addf (mulf x0 (broadcastTo S5000x128 (shapeCast S1x128 a0 shapeCasts_S1x128_S1x128) broadcasts_S1x128_S5000x128))
             (mulf x1 (broadcastTo S5000x128 (shapeCast S1x128 a1 shapeCasts_S1x128_S1x128) broadcasts_S1x128_S5000x128)))

/-- The contribution at row r, lane c. -/
theorem seg_apply (x0 x1 : Vec Ideal S5000x128 .f32) (ids : IVec S5000x1 32) (w : BitVec 32)
    (a0 a1 : Vec Ideal S1x128 .f32) (r : Fin 5000) (c : Fin 128) :
    seg x0 x1 ids w a0 a1 (ix2 r c)
      = (if ids (ix2 r 0) = w then (1 : EReal) else 0) * (x0 (ix2 r c) * a0 (ix2 0 c) + x1 (ix2 r c) * a1 (ix2 0 c)) := by
  unfold seg
  rw [mulf_apply, addf_apply, mulf_apply, mulf_apply, shapeCast_self, shapeCast_self,
    broadcastTo_a1_ab_apply, broadcastTo_1b_ab_apply, broadcastTo_1b_ab_apply]
  rw [sitofp_apply, extui_apply]
  show ((((IntOp.cmpi .eq (ids (ix2 r 0)) w).setWidth 32).toInt : ℝ) : EReal) * _ = _
  rw [indicator_word]

/-- The one-row load at row k of a weight table, read at lane c, is the table's entry (k, c). -/
theorem row_read (x : Vec Ideal S8x128 .f32) (k : ℕ) (hk : k < 8)
    (inb : ∀ a, (![k, 0] : Fin 2 → ℕ) a + S1x128.size a ≤ S8x128.size a) (c : Fin 128) :
    View.ld x (Rect.unit (s := S8x128) ![k, 0] S1x128.size inb) (ix2 (0 : Fin 1) c) = x (ix2 (⟨k, hk⟩ : Fin 8) c) := by
  show x _ = x _
  refine congrArg x (funext fun a => Fin.ext ?_)
  match a with
  | ⟨0, _⟩ => show k + 1 * 0 = k; omega
  | ⟨1, _⟩ => show 0 + 1 * c.val = c.val; omega

/-- The body's stored block is the zero block plus the eight segments' contributions, added in order. -/
theorem body_eq (x0 x1 : Vec Ideal S5000x128 .f32) (x2 : Vec Ideal S5000x1 .i32) (x3 x4 : Vec Ideal S8x128 .f32) :
    out1_5 x0 x1 x2 x3 x4 =
      addf (addf (addf (addf (addf (addf (addf (addf (broadcast S5000x128 (Ideal.ofBits .f32 0x00000000#32))
        (seg x0 x1 (k1_pay2 x2) 0#32 (View.ld x3 r1_2) (View.ld x4 r1_2)))
        (seg x0 x1 (k1_pay2 x2) 1#32 (View.ld x3 r1_3) (View.ld x4 r1_3)))
        (seg x0 x1 (k1_pay2 x2) 2#32 (View.ld x3 r1_4) (View.ld x4 r1_4)))
        (seg x0 x1 (k1_pay2 x2) 3#32 (View.ld x3 r1_5) (View.ld x4 r1_5)))
        (seg x0 x1 (k1_pay2 x2) 4#32 (View.ld x3 r1_6) (View.ld x4 r1_6)))
        (seg x0 x1 (k1_pay2 x2) 5#32 (View.ld x3 r1_7) (View.ld x4 r1_7)))
        (seg x0 x1 (k1_pay2 x2) 6#32 (View.ld x3 r1_8) (View.ld x4 r1_8)))
        (seg x0 x1 (k1_pay2 x2) 7#32 (View.ld x3 r1_9) (View.ld x4 r1_9)) := by
  unfold out1_5
  rw [View.canon_unit_zero hz]
  simp only [View.ld_unit_zero (S := S5000x128) hz, View.ld_unit_zero (S := S5000x1) hz]
  rfl

/-- The body's stored block at row r, lane c: the sum over the eight segments of the indicator times the pair. -/
theorem payload_apply (x0 x1 : Vec Ideal S5000x128 .f32) (x2 : Vec Ideal S5000x1 .i32) (x3 x4 : Vec Ideal S8x128 .f32)
    (r : Fin 5000) (c : Fin 128) :
    out1_5 x0 x1 x2 x3 x4 (ix2 r c)
      = ∑ b : Fin 8, (if x2 (ix2 r 0) = BitVec.ofNat 32 b.val then (1 : EReal) else 0)
          * (x0 (ix2 r c) * x3 (ix2 b c) + x1 (ix2 r c) * x4 (ix2 b c)) := by
  have hids : k1_pay2 (F := Ideal) x2 = x2 := by unfold k1_pay2; exact shapeCast_self _ _
  rw [body_eq, hids]
  simp only [addf_apply, seg_apply, broadcast_apply, Ideal.ofBits_zero_f32, zero_add]
  rw [row_read x3 0 (by omega), row_read x4 0 (by omega), row_read x3 1 (by omega), row_read x4 1 (by omega),
    row_read x3 2 (by omega), row_read x4 2 (by omega), row_read x3 3 (by omega), row_read x4 3 (by omega),
    row_read x3 4 (by omega), row_read x4 4 (by omega), row_read x3 5 (by omega), row_read x4 5 (by omega),
    row_read x3 6 (by omega), row_read x4 6 (by omega), row_read x3 7 (by omega), row_read x4 7 (by omega)]
  rw [Fin.sum_univ_eight]
  rfl

/-! ## A tile's blocks as rows of the arrays -/

variable (V : (c : Dev nD) → (b : Ref sig .tc) → Buf (Elt Ideal) ((c : Thread nD τ).loc b))

/-- The block indices of the six windows at tile t, decided over the 100 tiles: the three row-tiled inputs and the
    output sit at block row t, the two weight tables at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile t's block of the first feature array holds rows 5000·t … 5000·t + 4999. -/
theorem blk0_apply (c : Dev nD) (t : Fin cfg1.N) (r : Fin 5000) (q : Fin 128) (n : Fin 500000)
    (hn : n.val = 5000 * t.val + r.val) :
    (iblk1 V c 0 t : Vec Ideal S5000x128 .f32) (ix2 r q) = (V c main_arg0 : Cert.Spec.Rows.Idx → EReal) (ix2 n q) := by
  obtain ⟨e0, e1, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * q.val = q.val; rw [e1]; omega

/-- The same rows of the second feature array. -/
theorem blk1_apply (c : Dev nD) (t : Fin cfg1.N) (r : Fin 5000) (q : Fin 128) (n : Fin 500000)
    (hn : n.val = 5000 * t.val + r.val) :
    (iblk1 V c 1 t : Vec Ideal S5000x128 .f32) (ix2 r q) = (V c main_arg1 : Cert.Spec.Rows.Idx → EReal) (ix2 n q) := by
  obtain ⟨-, -, e0, e1, -⟩ := idx_facts t
  unfold iblk1
  rw [View.read_apply]
  show V c main_arg1 _ = V c main_arg1 _
  refine congrArg (V c main_arg1) (funext fun a => Fin.ext ?_)
  match a with
  | ⟨0, _⟩ => show win1_1.index t (0 : Fin 2) * 5000 + 1 * r.val = n.val; rw [e0, hn]; omega
  | ⟨1, _⟩ => show win1_1.index t (1 : Fin 2) * 128 + 1 * q.val = q.val; rw [e1]; omega

/-- The same rows of the id column. -/
theorem blk2_apply (c : Dev nD) (t : Fin cfg1.N) (r : Fin 5000) (z : Fin 1) (n : Fin 500000)
    (hn : n.val = 5000 * t.val + r.val) :
    (iblk1 V c 2 t : Vec Ideal S5000x1 .i32) (ix2 r z) = (V c main_v0 : Cert.Spec.IdCol.Idx → BitVec 32) (ix2 n z) := by
  obtain ⟨-, -, -, -, e0, e1, -⟩ := idx_facts t
  unfold iblk1
  rw [View.read_apply]
  show V c main_v0 _ = V c main_v0 _
  refine congrArg (V c main_v0) (funext fun a => Fin.ext ?_)
  match a with
  | ⟨0, _⟩ => show win1_2.index t (0 : Fin 2) * 5000 + 1 * r.val = n.val; rw [e0, hn]; omega
  | ⟨1, _⟩ => show win1_2.index t (1 : Fin 2) * 1 + 1 * z.val = z.val; rw [e1]; omega

/-- Every tile sees the whole first weight table. -/
theorem blk3_apply (c : Dev nD) (t : Fin cfg1.N) (b : Fin 8) (q : Fin 128) :
    (iblk1 V c 3 t : Vec Ideal S8x128 .f32) (ix2 b q) = (V c main_v29 : Cert.Spec.Segs.Idx → EReal) (ix2 b q) := by
  obtain ⟨-, -, -, -, -, -, e0, e1, -⟩ := idx_facts t
  unfold iblk1
  rw [View.read_apply]
  show V c main_v29 _ = V c main_v29 _
  refine congrArg (V c main_v29) (funext fun a => Fin.ext ?_)
  match a with
  | ⟨0, _⟩ => show win1_3.index t (0 : Fin 2) * 8 + 1 * b.val = b.val; rw [e0]; omega
  | ⟨1, _⟩ => show win1_3.index t (1 : Fin 2) * 128 + 1 * q.val = q.val; rw [e1]; omega

/-- And the whole second weight table. -/
theorem blk4_apply (c : Dev nD) (t : Fin cfg1.N) (b : Fin 8) (q : Fin 128) :
    (iblk1 V c 4 t : Vec Ideal S8x128 .f32) (ix2 b q) = (V c main_v30 : Cert.Spec.Segs.Idx → EReal) (ix2 b q) := by
  obtain ⟨-, -, -, -, -, -, -, -, e0, e1, -⟩ := idx_facts t
  unfold iblk1
  rw [View.read_apply]
  show V c main_v30 _ = V c main_v30 _
  refine congrArg (V c main_v30) (funext fun a => Fin.ext ?_)
  match a with
  | ⟨0, _⟩ => show win1_4.index t (0 : Fin 2) * 8 + 1 * b.val = b.val; rw [e0]; omega
  | ⟨1, _⟩ => show win1_4.index t (1 : Fin 2) * 128 + 1 * q.val = q.val; rw [e1]; omega

/-! ## From the tiles to the array -/

/-- What tile t writes back is its block of the combination of the arrays as the pass finds them. -/
theorem flushed_eq (c : Dev nD) (t : Fin cfg1.N) :
    (dat1 (F := Ideal) V c).flushed 5 t = ((cfg1.win 5).blk t).view.read (Elt Ideal)
      (Cert.Spec.combine (V c main_arg0) (V c main_arg1) (V c main_v0) (V c main_v29) (V c main_v30)) := by
  show (cfg1.win 5).cut (grid1.coords t) ((dat1 (F := Ideal) V c).after 5 t) = _
  rw [after1_5]
  funext j
  obtain ⟨r, q, rfl⟩ : ∃ (r : Fin 5000) (q : Fin 128), j = ix2 r q := ⟨j 0, j 1, eq_ix2 j⟩
  have ht : t.val < 100 := lt_of_lt_of_eq t.isLt N_1
  have hr : r.val < 5000 := r.isLt
  obtain ⟨-, -, -, -, -, -, -, -, -, -, e0, e1⟩ := idx_facts t
  have hemb : ((cfg1.win 5).blk t).view.emb (ix2 r q) = (ix2 (⟨5000 * t.val + r.val, by omega⟩ : Fin 500000) q : Cert.Spec.Rows.Idx) := by
    funext a; apply Fin.ext
    match a with
    | ⟨0, _⟩ => show win1_5.index t (0 : Fin 2) * 5000 + 1 * r.val = 5000 * t.val + r.val; rw [e0]; omega
    | ⟨1, _⟩ => show win1_5.index t (1 : Fin 2) * 128 + 1 * q.val = q.val; rw [e1]; omega
  show out1_5 (iblk1 V c 0 t) (iblk1 V c 1 t) (iblk1 V c 2 t) (iblk1 V c 3 t) (iblk1 V c 4 t) (ix2 r q)
    = Cert.Spec.combine (V c main_arg0) (V c main_arg1) (V c main_v0) (V c main_v29) (V c main_v30) (((cfg1.win 5).blk t).view.emb (ix2 r q))
  rw [hemb]
  refine (payload_apply (iblk1 V c 0 t) (iblk1 V c 1 t) (iblk1 V c 2 t) (iblk1 V c 3 t) (iblk1 V c 4 t) r q).trans ?_
  show _ = Cert.Spec.combineAt (V c main_arg0) (V c main_arg1) (V c main_v0) (V c main_v29) (V c main_v30) ⟨5000 * t.val + r.val, by omega⟩ q
  unfold Cert.Spec.combineAt
  refine Finset.sum_congr rfl fun b _ => ?_
  rw [blk0_apply V c t r q ⟨5000 * t.val + r.val, by omega⟩ rfl, blk1_apply V c t r q ⟨5000 * t.val + r.val, by omega⟩ rfl,
    blk2_apply V c t r 0 ⟨5000 * t.val + r.val, by omega⟩ rfl, blk3_apply V c t b q, blk4_apply V c t b q]

/-- An index of the output array is in tile t's block iff each coordinate is in the block's range on its axis. -/
theorem mem_blk (t : Fin cfg1.N) (i : S500000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- After the second pass the output array is the indicator-weighted combination of the two feature arrays. -/
theorem out_final (c : Dev nD) :
    (dat1 (F := Ideal) V c).arrAt 5 cfg1.N
      = Cert.Spec.combine (V c main_arg0) (V c main_arg1) (V c main_v0) (V c main_v29) (V c main_v30) := by
  refine (dat1 (F := Ideal) V c).arrAt_eq_of_cover 5 _ (fun t _ => flushed_eq V c t) fun i => ?_
  have hi0 : (i 0).val < 500000 := (i 0).isLt
  have hi1 : (i 1).val < 128 := (i 1).isLt
  have hN : cfg1.N = 100 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

end Cert.KernelIdeal.Combine

end
-- ==== Proof.KernelValue.lean ====
/-
  The kernel program's result array as one function of the arguments.
  Reading backwards from the return: the result is the second pass's output, the indicator-weighted
  combination of the two feature arrays by the two weight tables (one per feature array); the tables are the
  dense chain's two softmax weights of the first pass's outputs; those are the per-segment sums and counts of
  the rows; the segment ids reach both passes as a column, the id vector reshaped row-major.
  Each stretch of host operations is first read over ARBITRARY contents of the buffers it starts from, and
  only then placed at the program's own contents at that point.
-/
import proofs.«424673_j84559316123982_1_alg».proof.Proof.Gen.KernelIdeal.Frame
import proofs.«424673_j84559316123982_1_alg».proof.Proof.HostChain
import proofs.«424673_j84559316123982_1_alg».proof.Proof.Spec
import proofs.«424673_j84559316123982_1_alg».proof.Proof.ReduceValue
import proofs.«424673_j84559316123982_1_alg».proof.Proof.CombineValue
import Idealize.ShloMosaic.Lib.StableHlo.Run
import Idealize.ShloMosaic.Lib.Pipeline.Value
import Idealize.ShloMosaic.Lib.ValueIdx

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx

/-! ## The host stretches, over any starting contents -/

section Stretches

variable (X : Valuation τ sig (Elt Ideal))

/-- The reshape of the id vector to a column puts row n's id at (n, 0): both are position n row-major. -/
theorem ids_after0 :
    (StableHlo.after hostOps0 X (Proc.devRef .tc main_v0) : S500000x1.Idx → BitVec 32)
      = Cert.Spec.idsCol (X (Proc.devRef .tc main_arg2)) := by
  after_results
  funext (i : S500000x1.Idx)
  refine (shapeCast_apply _ _ i (ix1 (i 0)) ?_).trans rfl
  show (S500000.rowMajor (ix1 (i 0))).val = (S500000x1.rowMajor i).val
  rw [Shape.rowMajor_val_one, Shape.rowMajor_val_two]
  have h1 : (i 1).val < 1 := (i 1).isLt
  show (i 0).val = (i 0).val * 1 + (i 1).val
  omega

theorem arg0_after0 : StableHlo.after hostOps0 X (Proc.devRef .tc main_arg0) = X (Proc.devRef .tc main_arg0) := by after_results
theorem arg1_after0 : StableHlo.after hostOps0 X (Proc.devRef .tc main_arg1) = X (Proc.devRef .tc main_arg1) := by after_results
theorem arg3_after0 : StableHlo.after hostOps0 X (Proc.devRef .tc main_arg3) = X (Proc.devRef .tc main_arg3) := by after_results
theorem arg4_after0 : StableHlo.after hostOps0 X (Proc.devRef .tc main_arg4) = X (Proc.devRef .tc main_arg4) := by after_results
theorem arg5_after0 : StableHlo.after hostOps0 X (Proc.devRef .tc main_arg5) = X (Proc.devRef .tc main_arg5) := by after_results
theorem arg6_after0 : StableHlo.after hostOps0 X (Proc.devRef .tc main_arg6) = X (Proc.devRef .tc main_arg6) := by after_results
theorem arg7_after0 : StableHlo.after hostOps0 X (Proc.devRef .tc main_arg7) = X (Proc.devRef .tc main_arg7) := by after_results
theorem arg8_after0 : StableHlo.after hostOps0 X (Proc.devRef .tc main_arg8) = X (Proc.devRef .tc main_arg8) := by after_results
theorem arg9_after0 : StableHlo.after hostOps0 X (Proc.devRef .tc main_arg9) = X (Proc.devRef .tc main_arg9) := by after_results

set_option maxHeartbeats 4000000 in
/-- The first weight table at the second pass's entry is the dense chain's first softmax weight of the first
    pass's two outputs and the small arguments, whatever those hold. -/
theorem attn3_after :
    (StableHlo.after hostOps1_2 (StableHlo.after hostOps1_1 (StableHlo.after hostOps1 X)) (Proc.devRef .tc main_v29) : S8x128.Idx → EReal)
      = Chain.attn3 (F := Ideal) (X (Proc.devRef .tc main_v1_0)) (X (Proc.devRef .tc main_v1_1)) (X (Proc.devRef .tc main_arg3))
          (X (Proc.devRef .tc main_arg4)) (X (Proc.devRef .tc main_arg5)) (X (Proc.devRef .tc main_arg6)) (X (Proc.devRef .tc main_arg7))
          (X (Proc.devRef .tc main_arg8)) (X (Proc.devRef .tc main_arg9)) := by
  after_results_simp
  rfl

set_option maxHeartbeats 4000000 in
/-- The second weight table likewise. -/
theorem attn5_after :
    (StableHlo.after hostOps1_2 (StableHlo.after hostOps1_1 (StableHlo.after hostOps1 X)) (Proc.devRef .tc main_v30) : S8x128.Idx → EReal)
      = Chain.attn5 (F := Ideal) (X (Proc.devRef .tc main_v1_0)) (X (Proc.devRef .tc main_v1_1)) (X (Proc.devRef .tc main_arg3))
          (X (Proc.devRef .tc main_arg4)) (X (Proc.devRef .tc main_arg5)) (X (Proc.devRef .tc main_arg6)) (X (Proc.devRef .tc main_arg7))
          (X (Proc.devRef .tc main_arg8)) (X (Proc.devRef .tc main_arg9)) := by
  after_results_simp
  rfl

/-- The dense chain writes neither feature array nor the id column. -/
theorem arg0_after1 :
    StableHlo.after hostOps1_2 (StableHlo.after hostOps1_1 (StableHlo.after hostOps1 X)) (Proc.devRef .tc main_arg0) = X (Proc.devRef .tc main_arg0) := by
  after_results
theorem arg1_after1 :
    StableHlo.after hostOps1_2 (StableHlo.after hostOps1_1 (StableHlo.after hostOps1 X)) (Proc.devRef .tc main_arg1) = X (Proc.devRef .tc main_arg1) := by
  after_results
theorem ids_after1 :
    StableHlo.after hostOps1_2 (StableHlo.after hostOps1_1 (StableHlo.after hostOps1 X)) (Proc.devRef .tc main_v0) = X (Proc.devRef .tc main_v0) := by
  after_results

end Stretches

/-! ## The program's contents at each boundary -/

variable (m : (ℓ : Loc nD τ sig) → Buf (Elt Ideal) ℓ) (ρ : Dev nD → PrngReg)

/-! ### At the first pass's entry -/

theorem W1_arg0 (c : Dev nD) : W1 m ρ c (Proc.devRef .tc main_arg0) = m ((c.tc : Thread nD τ).loc main_arg0) := arg0_after0 (W0 m ρ c)
theorem W1_arg1 (c : Dev nD) : W1 m ρ c (Proc.devRef .tc main_arg1) = m ((c.tc : Thread nD τ).loc main_arg1) := arg1_after0 (W0 m ρ c)
theorem W1_arg3 (c : Dev nD) : W1 m ρ c (Proc.devRef .tc main_arg3) = m ((c.tc : Thread nD τ).loc main_arg3) := arg3_after0 (W0 m ρ c)
theorem W1_arg4 (c : Dev nD) : W1 m ρ c (Proc.devRef .tc main_arg4) = m ((c.tc : Thread nD τ).loc main_arg4) := arg4_after0 (W0 m ρ c)
theorem W1_arg5 (c : Dev nD) : W1 m ρ c (Proc.devRef .tc main_arg5) = m ((c.tc : Thread nD τ).loc main_arg5) := arg5_after0 (W0 m ρ c)
theorem W1_arg6 (c : Dev nD) : W1 m ρ c (Proc.devRef .tc main_arg6) = m ((c.tc : Thread nD τ).loc main_arg6) := arg6_after0 (W0 m ρ c)
theorem W1_arg7 (c : Dev nD) : W1 m ρ c (Proc.devRef .tc main_arg7) = m ((c.tc : Thread nD τ).loc main_arg7) := arg7_after0 (W0 m ρ c)
theorem W1_arg8 (c : Dev nD) : W1 m ρ c (Proc.devRef .tc main_arg8) = m ((c.tc : Thread nD τ).loc main_arg8) := arg8_after0 (W0 m ρ c)
theorem W1_arg9 (c : Dev nD) : W1 m ρ c (Proc.devRef .tc main_arg9) = m ((c.tc : Thread nD τ).loc main_arg9) := arg9_after0 (W0 m ρ c)
theorem W1_ids (c : Dev nD) : (W1 m ρ c (Proc.devRef .tc main_v0) : S500000x1.Idx → BitVec 32) = Cert.Spec.idsCol (m ((c.tc : Thread nD τ).loc main_arg2)) :=
  ids_after0 (W0 m ρ c)

/-! ### At the first pass's exit: its inputs as entered, its outputs the per-segment sums and counts -/

theorem W2_arg0 (c : Dev nD) : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c.tc : Thread nD τ).loc main_arg1) :=
  ((W2_arr m ρ c 1).trans (((dat0 (V1 m ρ) c).arrAt_in 1 rfl _).trans (A_eq0 (V1 m ρ) c 1))).trans (W1_arg1 m ρ c)
theorem W2_ids (c : Dev nD) : (W2 m ρ c (Proc.devRef .tc main_v0) : S500000x1.Idx → BitVec 32) = Cert.Spec.idsCol (m ((c.tc : Thread nD τ).loc main_arg2)) :=
  ((W2_arr m ρ c 2).trans (((dat0 (V1 m ρ) c).arrAt_in 2 rfl _).trans (A_eq0 (V1 m ρ) c 2))).trans (W1_ids m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)
theorem W2_arg8 (c : Dev nD) : W2 m ρ c (Proc.devRef .tc main_arg8) = m ((c.tc : Thread nD τ).loc main_arg8) :=
  (W2_of_ne m ρ c main_arg8 (by decide)).trans (W1_arg8 m ρ c)
theorem W2_arg9 (c : Dev nD) : W2 m ρ c (Proc.devRef .tc main_arg9) = m ((c.tc : Thread nD τ).loc main_arg9) :=
  (W2_of_ne m ρ c main_arg9 (by decide)).trans (W1_arg9 m ρ c)

theorem V1_arg0 (c : Dev nD) : V1 m ρ c main_arg0 = m ((c.tc : Thread nD τ).loc main_arg0) := W1_arg0 m ρ c
theorem V1_arg1 (c : Dev nD) : V1 m ρ c main_arg1 = m ((c.tc : Thread nD τ).loc main_arg1) := W1_arg1 m ρ c
theorem V1_ids (c : Dev nD) : (V1 m ρ c main_v0 : S500000x1.Idx → BitVec 32) = Cert.Spec.idsCol (m ((c.tc : Thread nD τ).loc main_arg2)) := W1_ids m ρ c

/-- The first pass leaves the per-segment sums of the two feature arrays in its first output. -/
theorem W2_seg (c : Dev nD) :
    (W2 m ρ c (Proc.devRef .tc main_v1_0) : S8x128.Idx → EReal)
      = Cert.Spec.segSum (m ((c.tc : Thread nD τ).loc main_arg0)) (m ((c.tc : Thread nD τ).loc main_arg1)) (Cert.Spec.idsCol (m ((c.tc : Thread nD τ).loc main_arg2))) := by
  refine (W2_arr m ρ c 3).trans ((Reduce.segs_final (V1 m ρ) c).trans ?_)
  rw [V1_arg0, V1_arg1, V1_ids]

/-- … and the per-segment row counts in its second. -/
theorem W2_cnt (c : Dev nD) :
    (W2 m ρ c (Proc.devRef .tc main_v1_1) : S8x1.Idx → EReal)
      = Cert.Spec.segCount (Cert.Spec.idsCol (m ((c.tc : Thread nD τ).loc main_arg2))) := by
  refine (W2_arr m ρ c 4).trans ((Reduce.counts_final (V1 m ρ) c).trans ?_)
  rw [V1_ids]

/-! ### At the second pass's entry -/

theorem V5_arg0 (c : Dev nD) : V5 m ρ c main_arg0 = m ((c.tc : Thread nD τ).loc main_arg0) := (arg0_after1 (W2 m ρ c)).trans (W2_arg0 m ρ c)
theorem V5_arg1 (c : Dev nD) : V5 m ρ c main_arg1 = m ((c.tc : Thread nD τ).loc main_arg1) := (arg1_after1 (W2 m ρ c)).trans (W2_arg1 m ρ c)
theorem V5_ids (c : Dev nD) : (V5 m ρ c main_v0 : S500000x1.Idx → BitVec 32) = Cert.Spec.idsCol (m ((c.tc : Thread nD τ).loc main_arg2)) :=
  (ids_after1 (W2 m ρ c)).trans (W2_ids m ρ c)

/-- The per-segment sums and counts of the arguments. -/
abbrev sums (c : Dev nD) : S8x128.Idx → EReal :=
  Cert.Spec.segSum (m ((c.tc : Thread nD τ).loc main_arg0)) (m ((c.tc : Thread nD τ).loc main_arg1)) (Cert.Spec.idsCol (m ((c.tc : Thread nD τ).loc main_arg2)))
abbrev counts (c : Dev nD) : S8x1.Idx → EReal := Cert.Spec.segCount (Cert.Spec.idsCol (m ((c.tc : Thread nD τ).loc main_arg2)))

theorem V5_attn3 (c : Dev nD) :
    (V5 m ρ c main_v29 : S8x128.Idx → EReal)
      = Chain.attn3 (F := Ideal) (sums m c) (counts m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (attn3_after (W2 m ρ c)).trans ?_
  rw [W2_seg, W2_cnt, W2_arg3, W2_arg4, W2_arg5, W2_arg6, W2_arg7, W2_arg8, W2_arg9]

theorem V5_attn5 (c : Dev nD) :
    (V5 m ρ c main_v30 : S8x128.Idx → EReal)
      = Chain.attn5 (F := Ideal) (sums m c) (counts m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (attn5_after (W2 m ρ c)).trans ?_
  rw [W2_seg, W2_cnt, W2_arg3, W2_arg4, W2_arg5, W2_arg6, W2_arg7, W2_arg8, W2_arg9]

/-! ### At the return -/

/-- The kernel program's result: the combination of the two feature arrays by the weights of each row's segment. -/
def result (c : Dev nD) : S500000x128.Idx → EReal :=
  Cert.Spec.combine (m ((c.tc : Thread nD τ).loc main_arg0)) (m ((c.tc : Thread nD τ).loc main_arg1)) (Cert.Spec.idsCol (m ((c.tc : Thread nD τ).loc main_arg2)))
    (Chain.attn3 (F := Ideal) (sums m c) (counts m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (Chain.attn5 (F := Ideal) (sums m c) (counts m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))

theorem result_eq (c : Dev nD) : (W6 m ρ c (Proc.devRef .tc main_v31) : S500000x128.Idx → EReal) = result m c := by
  refine (W6_arr m ρ c 5).trans ((Combine.out_final (V5 m ρ) c).trans ?_)
  rw [V5_arg0, V5_arg1, V5_ids, V5_attn3, V5_attn5]
  rfl

end Cert.KernelIdeal.Result

end
-- ==== Proof.RefScatterGather.lean ====
/-
  The reference's two index-driven operations read at an index.
  Its scatter-add of the rows into eight segments is, per segment and lane, the sum over the rows whose id
  names the segment (an id outside 0 … 7 lands nowhere), from a zero table; its gather of the weight table by
  row id reads, for a row whose id is the word of b (0 ≤ b < 8), segment b's entry: the negative-id wrap and
  the clamp into the table both leave such an id alone.

  The plan, for each scatter-add: an update index is a pair (row n, window coordinate c′). Its start on the
  segment axis is row n's id read as a signed number, its start on the lane axis is 0; its window coordinate
  is 0 on the segment axis and c′ on the lane axis. So it lands on (b, c) exactly when the signed id equals b
  and c′ = c, and otherwise on another entry or nowhere. A 32-bit word reads as the signed number b, 0 ≤ b < 8,
  exactly when it is the word of b. The sum over the landing updates is then a double sum over (n, c′) of an
  indicator, whose inner sum over c′ has the one term c′ = c.
  For the gather: a result index (n, k, c) starts on the segment axis at row n's wrapped id, read signed and
  clamped into 0 … 7, and at 0 on the two kept axes; its offsets are 0, k, c. For the word of b the wrap's
  test "id < 0" fails, so the id is kept, and min b 7 = b.
-/
import proofs.«424673_j84559316123982_1_alg».proof.Proof.Gen.ReferenceIdeal.Read
import proofs.«424673_j84559316123982_1_alg».proof.Proof.Spec
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx

/-! ## A segment's id word -/

/-- A 32-bit word is the signed number b, 0 ≤ b < 8, exactly when it is the word of b. -/
theorem idWord_toInt_eq_iff (w : BitVec 32) (b : Fin 8) : w.toInt = (b.val : Int) ↔ w = BitVec.ofNat 32 b.val := by
  have hb : b.val < 2 ^ 31 := by have := b.isLt; omega
  constructor
  · intro h
    apply BitVec.eq_of_toInt_eq
    rw [h, StableHlo.Predicate.toInt_ofNat_small _ hb]
  · rintro rfl
    exact StableHlo.Predicate.toInt_ofNat_small _ hb

/-! ## The scatter of the 128-lane rows into the 8 × 128 table -/

/-- The dimension numbers of the row scatter: the updates' axis 1 is the window, the table's axis 0 is the
    scattered one, each scatter index is one scalar. -/
abbrev segDims := scatter_S8x128_S500000x1_S500000x128_1_0_0_1

/-- Update (n, c′) starts, on the segment axis, at row n's id read signed. -/
theorem segDims_start0 (idx : IVec S500000x1 32) (n : Fin 500000) (c' : Fin 128) :
    segDims.start (ix2 n c') idx 0 = (idx (ix2 n 0)).toInt := by
  unfold ScatterDims.start
  rw [dif_pos (show (0 : Fin 2) ∈ segDims.scatterDimsToOperandDims from List.mem_singleton.mpr rfl)]
  have hsi : segDims.siIdx (ix2 n c') ⟨List.idxOf (0 : Fin 2) segDims.scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- On the lane axis, which no scatter index names, it starts at 0. -/
theorem segDims_start1 (idx : IVec S500000x1 32) (n : Fin 500000) (c' : Fin 128) :
    segDims.start (ix2 n c') idx 1 = 0 := by
  unfold ScatterDims.start
  rw [dif_neg (show ¬ (1 : Fin 2) ∈ segDims.scatterDimsToOperandDims by decide)]

/-- The segment axis is inserted: the window coordinate there is 0. -/
theorem segDims_window0 (n : Fin 500000) (c' : Fin 128) :
    segDims.window (ix2 n c') 0 = 0 := by
  unfold ScatterDims.window
  rw [dif_neg (show ¬ (0 : Fin 2) ∈ segDims.sKept by decide)]

/-- The lane axis carries the update's window coordinate c′. -/
theorem segDims_window1 (n : Fin 500000) (c' : Fin 128) :
    segDims.window (ix2 n c') 1 = c'.val := by
  unfold ScatterDims.window
  rw [dif_pos (show (1 : Fin 2) ∈ segDims.sKept by decide)]
  rfl

/-- Update (n, c′) lands on entry (b, c) exactly when row n's signed id is b and c′ = c. An id outside
    0 … 7 lands on no entry: it is never equal to such a b. -/
theorem segDims_resultIdx_iff (idx : IVec S500000x1 32) (n : Fin 500000) (c' : Fin 128) (b : Fin 8) (c : Fin 128) :
    segDims.resultIdx? (ix2 n c') idx = some (ix2 b c) ↔ (idx (ix2 n 0)).toInt = (b.val : Int) ∧ c' = c := by
  have hs0 := segDims_start0 idx n c'
  have hs1 := segDims_start1 idx n c'
  have hw0 := segDims_window0 n c'
  have hw1 := segDims_window1 n c'
  have hb : b.val < 8 := b.isLt
  have hc' : c'.val < 128 := c'.isLt
  unfold ScatterDims.resultIdx?
  constructor
  · intro e
    split at e
    · rename_i h
      have e' := Option.some.inj e
      have e0 : (segDims.start (ix2 n c') idx 0 + (segDims.window (ix2 n c') 0 : Int)).toNat = b.val :=
        congrArg (fun f : S8x128.Idx => (f 0).val) e'
      have e1 : (segDims.start (ix2 n c') idx 1 + (segDims.window (ix2 n c') 1 : Int)).toNat = c.val :=
        congrArg (fun f : S8x128.Idx => (f 1).val) e'
      have h0 := (h 0).1
      rw [hs0, hw0] at e0 h0
      rw [hs1, hw1] at e1
      refine ⟨by omega, Fin.ext (by omega)⟩
    · exact absurd e (by simp)
  · rintro ⟨ht, rfl⟩
    have h : ∀ a : Fin S8x128.rank, 0 ≤ segDims.start (ix2 n c') idx a + (segDims.window (ix2 n c') a : Int) ∧
        segDims.start (ix2 n c') idx a + (segDims.window (ix2 n c') a : Int) < (S8x128.size a : Int) := by
      intro a
      match a with
      | ⟨0, _⟩ =>
        show 0 ≤ segDims.start (ix2 n c') idx 0 + (segDims.window (ix2 n c') 0 : Int) ∧
          segDims.start (ix2 n c') idx 0 + (segDims.window (ix2 n c') 0 : Int) < ((8 : Nat) : Int)
        rw [hs0, hw0]; omega
      | ⟨1, _⟩ =>
        show 0 ≤ segDims.start (ix2 n c') idx 1 + (segDims.window (ix2 n c') 1 : Int) ∧
          segDims.start (ix2 n c') idx 1 + (segDims.window (ix2 n c') 1 : Int) < ((128 : Nat) : Int)
        rw [hs1, hw1]; omega
    rw [dif_pos h]
    congr 1
    funext a
    refine Fin.ext ?_
    match a with
    | ⟨0, _⟩ =>
      show (segDims.start (ix2 n c') idx 0 + (segDims.window (ix2 n c') 0 : Int)).toNat = b.val
      rw [hs0, hw0]; omega
    | ⟨1, _⟩ =>
      show (segDims.start (ix2 n c') idx 1 + (segDims.window (ix2 n c') 1 : Int)).toNat = c'.val
      rw [hs1, hw1]; omega

/-- The scattered sums are the per-segment sums of x0 + x1. -/
theorem seg_eq (x0 x1 : FVec Ideal S500000x128 .f32) (x2 : IVec S500000 32) :
    val_main_v3 (F := Ideal) x0 x1 x2 = Cert.Spec.segSum x0 x1 (Cert.Spec.idsCol x2) := by
  funext j
  obtain ⟨b, c, rfl⟩ : ∃ (b : Fin 8) (c : Fin 128), j = ix2 b c := ⟨j 0, j 1, eq_ix2 j⟩
  show _ = Cert.Spec.segSumAt x0 x1 (Cert.Spec.idsCol x2) b c
  unfold val_main_v3 Host.scatterAdd
  rw [Ideal.hostScatterAdd_def]
  unfold Ideal.hostScatterAdd Cert.Spec.segSumAt
  -- the table starts at zero; the landing updates' sum becomes a double sum over (n, c′) of an indicator
  rw [val_main_v1_apply, val_main_cst_apply, Ideal.ofBits_def, Ideal.ofBits_zero_f32, zero_add, Finset.sum_filter, sum_idx2]
  refine Finset.sum_congr rfl (fun n _ => ?_)
  have hid : val_main_v2 (F := Ideal) x2 (ix2 n 0) = Cert.Spec.idsCol x2 (ix2 n 0) := by
    rw [val_main_v2_apply]
    exact congrArg x2 (funext fun a => match a with | ⟨0, _⟩ => rfl)
  simp only [segDims_resultIdx_iff, hid, idWord_toInt_eq_iff]
  -- row n: if its id names b the inner sum has the one term c′ = c, else every term is 0
  by_cases hn : Cert.Spec.idsCol x2 (ix2 n 0) = BitVec.ofNat 32 b.val
  · simp only [hn, true_and, if_true]
    rw [Finset.sum_ite_eq' Finset.univ c, if_pos (Finset.mem_univ c)]
    rfl
  · simp only [hn, false_and, if_false]
    exact Finset.sum_const_zero

/-! ## The scatter of the column of ones into the 8 × 1 column -/

/-- The dimension numbers of the count scatter: the same lists over a window of one lane. -/
abbrev cntDims := scatter_S8x1_S500000x1_S500000x1_1_0_0_1

/-- Update (n, z) starts, on the segment axis, at row n's id read signed. -/
theorem cntDims_start0 (idx : IVec S500000x1 32) (n : Fin 500000) (z : Fin 1) :
    cntDims.start (ix2 n z) idx 0 = (idx (ix2 n 0)).toInt := by
  unfold ScatterDims.start
  rw [dif_pos (show (0 : Fin 2) ∈ cntDims.scatterDimsToOperandDims from List.mem_singleton.mpr rfl)]
  have hsi : cntDims.siIdx (ix2 n z) ⟨List.idxOf (0 : Fin 2) cntDims.scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- On the one-lane axis it starts at 0. -/
theorem cntDims_start1 (idx : IVec S500000x1 32) (n : Fin 500000) (z : Fin 1) :
    cntDims.start (ix2 n z) idx 1 = 0 := by
  unfold ScatterDims.start
  rw [dif_neg (show ¬ (1 : Fin 2) ∈ cntDims.scatterDimsToOperandDims by decide)]

/-- The segment axis is inserted: the window coordinate there is 0. -/
theorem cntDims_window0 (n : Fin 500000) (z : Fin 1) :
    cntDims.window (ix2 n z) 0 = 0 := by
  unfold ScatterDims.window
  rw [dif_neg (show ¬ (0 : Fin 2) ∈ cntDims.sKept by decide)]

/-- The one-lane axis carries z, which is 0. -/
theorem cntDims_window1 (n : Fin 500000) (z : Fin 1) :
    cntDims.window (ix2 n z) 1 = 0 := by
  unfold ScatterDims.window
  rw [dif_pos (show (1 : Fin 2) ∈ cntDims.sKept by decide)]
  show z.val = 0
  omega

/-- Update (n, z) lands on entry (b, z′) exactly when row n's signed id is b. -/
theorem cntDims_resultIdx_iff (idx : IVec S500000x1 32) (n : Fin 500000) (z : Fin 1) (b : Fin 8) (z' : Fin 1) :
    cntDims.resultIdx? (ix2 n z) idx = some (ix2 b z') ↔ (idx (ix2 n 0)).toInt = (b.val : Int) := by
  have hs0 := cntDims_start0 idx n z
  have hs1 := cntDims_start1 idx n z
  have hw0 := cntDims_window0 n z
  have hw1 := cntDims_window1 n z
  have hb : b.val < 8 := b.isLt
  have hz' : z'.val = 0 := by omega
  unfold ScatterDims.resultIdx?
  constructor
  · intro e
    split at e
    · rename_i h
      have e' := Option.some.inj e
      have e0 : (cntDims.start (ix2 n z) idx 0 + (cntDims.window (ix2 n z) 0 : Int)).toNat = b.val :=
        congrArg (fun f : S8x1.Idx => (f 0).val) e'
      have h0 := (h 0).1
      rw [hs0, hw0] at e0 h0
      omega
    · exact absurd e (by simp)
  · intro ht
    have h : ∀ a : Fin S8x1.rank, 0 ≤ cntDims.start (ix2 n z) idx a + (cntDims.window (ix2 n z) a : Int) ∧
        cntDims.start (ix2 n z) idx a + (cntDims.window (ix2 n z) a : Int) < (S8x1.size a : Int) := by
      intro a
      match a with
      | ⟨0, _⟩ =>
        show 0 ≤ cntDims.start (ix2 n z) idx 0 + (cntDims.window (ix2 n z) 0 : Int) ∧
          cntDims.start (ix2 n z) idx 0 + (cntDims.window (ix2 n z) 0 : Int) < ((8 : Nat) : Int)
        rw [hs0, hw0]; omega
      | ⟨1, _⟩ =>
        show 0 ≤ cntDims.start (ix2 n z) idx 1 + (cntDims.window (ix2 n z) 1 : Int) ∧
          cntDims.start (ix2 n z) idx 1 + (cntDims.window (ix2 n z) 1 : Int) < ((1 : Nat) : Int)
        rw [hs1, hw1]; omega
    rw [dif_pos h]
    congr 1
    funext a
    refine Fin.ext ?_
    match a with
    | ⟨0, _⟩ =>
      show (cntDims.start (ix2 n z) idx 0 + (cntDims.window (ix2 n z) 0 : Int)).toNat = b.val
      rw [hs0, hw0]; omega
    | ⟨1, _⟩ =>
      show (cntDims.start (ix2 n z) idx 1 + (cntDims.window (ix2 n z) 1 : Int)).toNat = z'.val
      rw [hs1, hw1]; omega

/-- The scattered ones are the per-segment row counts. -/
theorem cnt_eq (x2 : IVec S500000 32) :
    val_main_v7 (F := Ideal) x2 = Cert.Spec.segCount (Cert.Spec.idsCol x2) := by
  funext j
  obtain ⟨b, z, rfl⟩ : ∃ (b : Fin 8) (z : Fin 1), j = ix2 b z := ⟨j 0, j 1, eq_ix2 j⟩
  show _ = Cert.Spec.segCountAt (Cert.Spec.idsCol x2) b
  unfold val_main_v7 Host.scatterAdd
  rw [Ideal.hostScatterAdd_def]
  unfold Ideal.hostScatterAdd Cert.Spec.segCountAt
  rw [val_main_v5_apply, val_main_cst_1_apply, Ideal.ofBits_def, Ideal.ofBits_zero_f32, zero_add, Finset.sum_filter, sum_idx2]
  refine Finset.sum_congr rfl (fun n _ => ?_)
  have hid : val_main_v6 (F := Ideal) x2 (ix2 n 0) = Cert.Spec.idsCol x2 (ix2 n 0) := by
    rw [val_main_v6_apply]
    exact congrArg x2 (funext fun a => match a with | ⟨0, _⟩ => rfl)
  -- every update is the number one
  have hone : ∀ z' : Fin 1, val_main_v4 (F := Ideal) (ix2 n z') = 1 := by
    intro z'
    rw [val_main_v4_apply, val_main_cst_0_apply, Ideal.ofBits_def, Ideal.ofBits_one_f32]
  simp only [cntDims_resultIdx_iff, hid, idWord_toInt_eq_iff, hone]
  exact Fin.sum_univ_one _

/-! ## The gather of the 8 × 2 × 128 weight table by row id -/

/-- The dimension numbers of the row gather: the table's axis 0 is collapsed and start-indexed, its axes 1 and
    2 are the result's offset axes, whole (slice sizes 1, 2, 128). -/
abbrev rowGatherDims := gather_S8x2x128_S500000x1_S500000x2x128_12_0_n_n_0_1_12128

/-- Result index (n, k, c) starts, on the segment axis, at row n's start index read signed and clamped
    into 0 … 7. -/
theorem rowGatherDims_start0 (idx : IVec S500000x1 32) (n : Fin 500000) (k : Fin 2) (c : Fin 128) :
    rowGatherDims.start (ix3 n k c) idx 0 = min (idx (ix2 n 0)).toInt.toNat 7 := by
  unfold GatherDims.start
  rw [dif_pos (show (0 : Fin 3) ∈ rowGatherDims.startIndexMap from List.mem_singleton.mpr rfl)]
  have hsi : rowGatherDims.siIdx (ix3 n k c) ⟨List.idxOf (0 : Fin 3) rowGatherDims.startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

/-- On the two kept axes the start is 0. -/
theorem rowGatherDims_start1 (idx : IVec S500000x1 32) (n : Fin 500000) (k : Fin 2) (c : Fin 128) :
    rowGatherDims.start (ix3 n k c) idx 1 = 0 := by
  unfold GatherDims.start
  rw [dif_neg (show ¬ (1 : Fin 3) ∈ rowGatherDims.startIndexMap by decide)]

theorem rowGatherDims_start2 (idx : IVec S500000x1 32) (n : Fin 500000) (k : Fin 2) (c : Fin 128) :
    rowGatherDims.start (ix3 n k c) idx 2 = 0 := by
  unfold GatherDims.start
  rw [dif_neg (show ¬ (2 : Fin 3) ∈ rowGatherDims.startIndexMap by decide)]

/-- The offsets of (n, k, c): 0 on the collapsed axis, k and c on the kept ones. -/
theorem rowGatherDims_off0 (n : Fin 500000) (k : Fin 2) (c : Fin 128) : rowGatherDims.offCoord (ix3 n k c) 0 = 0 :=
  rowGatherDims.offCoord_eq_zero _ _ (by decide)

theorem rowGatherDims_off1 (n : Fin 500000) (k : Fin 2) (c : Fin 128) : rowGatherDims.offCoord (ix3 n k c) 1 = k.val := by
  unfold GatherDims.offCoord
  rw [dif_pos (show (1 : Fin 3) ∈ rowGatherDims.sKept by decide)]
  rfl

theorem rowGatherDims_off2 (n : Fin 500000) (k : Fin 2) (c : Fin 128) : rowGatherDims.offCoord (ix3 n k c) 2 = c.val := by
  unfold GatherDims.offCoord
  rw [dif_pos (show (2 : Fin 3) ∈ rowGatherDims.sKept by decide)]
  rfl

/-- When row n's start index is the signed number b, 0 ≤ b < 8, result index (n, k, c) reads the table at
    (b, k, c): the clamp min b 7 is b. -/
theorem rowGatherDims_operandIdx (idx : IVec S500000x1 32) (n : Fin 500000) (k : Fin 2) (c : Fin 128) (b : Fin 8)
    (h : (idx (ix2 n 0)).toInt = (b.val : Int)) :
    rowGatherDims.operandIdx (ix3 n k c) idx = ix3 b k c := by
  have hb : b.val < 8 := b.isLt
  funext a
  refine Fin.ext ?_
  match a with
  | ⟨0, _⟩ =>
    show rowGatherDims.start (ix3 n k c) idx 0 + rowGatherDims.batchCoord (ix3 n k c) 0
      + rowGatherDims.offCoord (ix3 n k c) 0 = b.val
    rw [rowGatherDims_start0, rowGatherDims_off0, rowGatherDims.batchCoord_eq_zero _ _ List.not_mem_nil, h]; omega
  | ⟨1, _⟩ =>
    show rowGatherDims.start (ix3 n k c) idx 1 + rowGatherDims.batchCoord (ix3 n k c) 1
      + rowGatherDims.offCoord (ix3 n k c) 1 = k.val
    rw [rowGatherDims_start1, rowGatherDims_off1, rowGatherDims.batchCoord_eq_zero _ _ List.not_mem_nil]; omega
  | ⟨2, _⟩ =>
    show rowGatherDims.start (ix3 n k c) idx 2 + rowGatherDims.batchCoord (ix3 n k c) 2
      + rowGatherDims.offCoord (ix3 n k c) 2 = c.val
    rw [rowGatherDims_start2, rowGatherDims_off2, rowGatherDims.batchCoord_eq_zero _ _ List.not_mem_nil]; omega

/-- A row whose id is the word of b gathers segment b's entries of the weight table. -/
theorem gather_at (x0 x1 : FVec Ideal S500000x128 .f32) (x2 : IVec S500000 32) (x3 : FVec Ideal S128x16 .f32)
    (x4 x5 x6 x7 : FVec Ideal S16 .f32) (x8 x9 : FVec Ideal S16x128 .f32)
    (n : Fin 500000) (k : Fin 2) (c : Fin 128) (b : Fin 8) (h : x2 (ix1 n) = BitVec.ofNat 32 b.val) :
    val_main_v49 (F := Ideal) x0 x1 x2 x3 x4 x5 x6 x7 x8 x9 (ix3 n k c)
      = val_main_v42 (F := Ideal) x0 x1 x2 x3 x4 x5 x6 x7 x8 x9 (ix3 b k c) := by
  have hb : b.val < 8 := b.isLt
  have hbn : (BitVec.ofNat 32 b.val).toNat = b.val := by
    rw [BitVec.toNat_ofNat]; exact Nat.mod_eq_of_lt (by omega)
  -- the word of b is not below zero as a signed number, so the wrap keeps it
  have hlt : IntOp.cmpi .slt (BitVec.ofNat 32 b.val) 0#32 = 0#1 := by
    apply eq_zero_of_ne_one
    rw [StableHlo.Predicate.slt_iff_toNat (by rw [hbn]; omega) (by decide)]
    intro hh
    simp at hh
  have hidx : (val_main_v48 (F := Ideal) x2 (ix2 n 0)).toInt = (b.val : Int) := by
    have e1 : idx_main_v48 (ix2 n (0 : Fin 1)) = ix1 n := funext fun a => match a with | ⟨0, _⟩ => rfl
    rw [val_main_v48_apply, e1, val_main_v47_apply, val_main_v44_apply, val_main_v43_apply, val_main_c_apply, h, hlt,
      select_zero]
    exact StableHlo.Predicate.toInt_ofNat_small _ (by omega)
  unfold val_main_v49 Host.gather
  rw [rowGatherDims_operandIdx _ n k c b hidx]

end Cert.ReferenceIdeal.RefValue

end
-- ==== Proof.RefSoftmax.lean ====
/-
  The reference's weight table is the kernel's pair of tables, stacked: entry (b, 0, c) is the first two-way
  softmax weight of the pair (e3, e5) at (b, c) and entry (b, 1, c) the second. The reference forms the
  softmax over the stacked axis (a maximum from −∞ over two entries, a sum from 0 over two entries); the
  kernel writes max(e3, e5) and e3' + e5' directly. On the extended reals max(−∞, x) = x and 0 + x = x.
  Everything before the softmax is the same chain of operations on both sides.
-/
import proofs.«424673_j84559316123982_1_alg».proof.Proof.Gen.ReferenceIdeal.Read
import proofs.«424673_j84559316123982_1_alg».proof.Proof.HostChain

noncomputable section

namespace Cert.ReferenceIdeal.RefValue

open Cert.ReferenceIdeal Cert.ReferenceIdeal.Gen Cert.ReferenceIdeal.Read Idealize.ShloMosaic Idealize.ShloMosaic.ValueIdx

/-- The word 0xFF800000 is −∞, the least extended real. -/
theorem ninf_eq_bot : Ideal.ofBits .f32 0xFF800000#32 = (⊥ : EReal) := by
  simp [Ideal.ofBits, Ideal.ieee]

/-- A fold of a commutative associative operation over a two-element index set takes both entries in turn. -/
theorem fold_pair {α : Type} (f : α → α → α) [Std.Commutative f] [Std.Associative f] (init : α) (g : Fin 2 → α) :
    (Finset.univ : Finset (Fin 2)).fold f init g = f (g 0) (f (g 1) init) := by
  rw [show (Finset.univ : Finset (Fin 2)) = insert 0 {1} from by decide,
    Finset.fold_insert (by decide), Finset.fold_singleton]

/-- The stacked array is the first piece on row 0 of the joined axis: entry (b, 0, c) is e3 at (b, c). -/
theorem stack_fst (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v31 (F := Ideal) x0 x1 x2 x3 x4 x5 x6 x7 x8 x9 (ix3 b 0 c)
      = val_main_v27 (F := Ideal) x0 x1 x2 x3 x4 x5 x6 x7 x8 (ix2 b c) := by
  unfold val_main_v31
  rw [concatenate_pair_apply_left (t := S8x2x128) (s₁ := S8x1x128) (s₂ := S8x1x128) (1 : Fin 3)
    (val_main_v29 (F := Ideal) x0 x1 x2 x3 x4 x5 x6 x7 x8) (val_main_v30 (F := Ideal) x0 x1 x2 x3 x4 x5 x6 x7 x9)
    concatenates_S8x1x128_S8x1x128_S8x2x128_d1 (ix3 b (0 : Fin 2) c : S8x2x128.Idx) rfl (ix3 b (0 : Fin 1) c : S8x1x128.Idx)
    (fun a => by match a with | ⟨0, _⟩ => rfl | ⟨1, _⟩ => rfl | ⟨2, _⟩ => rfl)]
  rw [val_main_v29_apply]
  exact congrArg _ (funext fun a => Fin.ext (by match a with | ⟨0, _⟩ => rfl | ⟨1, _⟩ => rfl))

/-- … and the second piece on row 1: entry (b, 1, c) is e5 at (b, c). -/
theorem stack_snd (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v31 (F := Ideal) x0 x1 x2 x3 x4 x5 x6 x7 x8 x9 (ix3 b 1 c)
      = val_main_v28 (F := Ideal) x0 x1 x2 x3 x4 x5 x6 x7 x9 (ix2 b c) := by
  unfold val_main_v31
  rw [concatenate_pair_apply_right (t := S8x2x128) (s₁ := S8x1x128) (s₂ := S8x1x128) (1 : Fin 3)
    (val_main_v29 (F := Ideal) x0 x1 x2 x3 x4 x5 x6 x7 x8) (val_main_v30 (F := Ideal) x0 x1 x2 x3 x4 x5 x6 x7 x9)
    concatenates_S8x1x128_S8x1x128_S8x2x128_d1 (ix3 b (1 : Fin 2) c : S8x2x128.Idx) rfl rfl (ix3 b (0 : Fin 1) c : S8x1x128.Idx)
    (fun a ha => by match a with | ⟨0, _⟩ => rfl | ⟨1, _⟩ => exact absurd rfl ha | ⟨2, _⟩ => rfl) rfl]
  rw [val_main_v30_apply]
  exact congrArg _ (funext fun a => Fin.ext (by match a with | ⟨0, _⟩ => rfl | ⟨1, _⟩ => rfl))

/-- The hidden activations are the same chain of operations on both sides: mean, linear map, affine
    normalisation with the same ε, positive part. The per-segment sums and counts stay unopened. -/
theorem hidden_eq (x0 x1 : FVec Ideal S500000x128 .f32) (x2 : IVec S500000 32) (x3 : FVec Ideal S128x16 .f32)
    (x4 x5 x6 x7 : FVec Ideal S16 .f32) :
    val_main_v26 (F := Ideal) x0 x1 x2 x3 x4 x5 x6 x7 = Cert.KernelIdeal.Chain.hidden (F := Ideal) (val_main_v3 (F := Ideal) x0 x1 x2) (val_main_v7 (F := Ideal) x2) x3 x4 x5 x6 x7 := by
  unfold val_main_v26 val_main_v25 val_main_v24 val_main_v23 val_main_v22 val_main_v21 val_main_v20 val_main_v19
    val_main_v18 val_main_v17 val_main_v16 val_main_v15 val_main_v14 val_main_v13 val_main_v12 val_main_v11
    val_main_v10 val_main_v9 val_main_v8 val_main_call0_v0 val_main_call0_cst val_main_cst_2
    Cert.KernelIdeal.Chain.hidden Cert.KernelIdeal.Chain.rep16
  rfl

/-- e3 is the first linear map applied to the hidden activations. -/
theorem excite_fst_eq (x0 x1 : FVec Ideal S500000x128 .f32) (x2 : IVec S500000 32) (x3 : FVec Ideal S128x16 .f32)
    (x4 x5 x6 x7 : FVec Ideal S16 .f32) (x8 : FVec Ideal S16x128 .f32) :
    val_main_v27 (F := Ideal) x0 x1 x2 x3 x4 x5 x6 x7 x8
      = Cert.KernelIdeal.Chain.excite (F := Ideal) (Cert.KernelIdeal.Chain.hidden (F := Ideal) (val_main_v3 (F := Ideal) x0 x1 x2) (val_main_v7 (F := Ideal) x2) x3 x4 x5 x6 x7) x8 := by
  rw [← hidden_eq]
  unfold val_main_v27 Cert.KernelIdeal.Chain.excite
  rfl

/-- e5 is the second linear map applied to the hidden activations. -/
theorem excite_snd_eq (x0 x1 : FVec Ideal S500000x128 .f32) (x2 : IVec S500000 32) (x3 : FVec Ideal S128x16 .f32)
    (x4 x5 x6 x7 : FVec Ideal S16 .f32) (x9 : FVec Ideal S16x128 .f32) :
    val_main_v28 (F := Ideal) x0 x1 x2 x3 x4 x5 x6 x7 x9
      = Cert.KernelIdeal.Chain.excite (F := Ideal) (Cert.KernelIdeal.Chain.hidden (F := Ideal) (val_main_v3 (F := Ideal) x0 x1 x2) (val_main_v7 (F := Ideal) x2) x3 x4 x5 x6 x7) x9 := by
  rw [← hidden_eq]
  unfold val_main_v28 Cert.KernelIdeal.Chain.excite
  rfl

/-- The first two-way softmax weight at an index: exp(u − m) / (exp(u − m) + exp(v − m)), m = max(u, v). -/
theorem softFst_apply (u v : FVec Ideal S8x128 .f32) (i : S8x128.Idx) :
    Cert.KernelIdeal.Chain.softFst (F := Ideal) u v i
      = Ideal.div (Ideal.exp (u i - max (u i) (v i)))
          (Ideal.exp (u i - max (u i) (v i)) + Ideal.exp (v i - max (u i) (v i))) := rfl

/-- The second two-way softmax weight at an index: exp(v − m) / (exp(u − m) + exp(v − m)), m = max(u, v). -/
theorem softSnd_apply (u v : FVec Ideal S8x128 .f32) (i : S8x128.Idx) :
    Cert.KernelIdeal.Chain.softSnd (F := Ideal) u v i
      = Ideal.div (Ideal.exp (v i - max (u i) (v i)))
          (Ideal.exp (u i - max (u i) (v i)) + Ideal.exp (v i - max (u i) (v i))) := rfl

/-- The maximum over the stacked axis from −∞ is max(e3, e5): max(x, −∞) = x. -/
theorem pairmax_apply (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v32 (F := Ideal) x0 x1 x2 x3 x4 x5 x6 x7 x8 x9 (ix2 b c)
      = max (val_main_v27 (F := Ideal) x0 x1 x2 x3 x4 x5 x6 x7 x8 (ix2 b c))
          (val_main_v28 (F := Ideal) x0 x1 x2 x3 x4 x5 x6 x7 x9 (ix2 b c)) := by
  have hR : Shape.Reduces S8x2x128 [(1 : Fin 3)] S8x128 := by decide
  have l0 : hR.lift (ix2 b c : S8x128.Idx) (0 : Fin 2) = (ix3 b (0 : Fin 2) c : S8x2x128.Idx) :=
    funext fun a => Fin.ext (by match a with | ⟨0, _⟩ => rfl | ⟨1, _⟩ => rfl | ⟨2, _⟩ => rfl)
  have l1 : hR.lift (ix2 b c : S8x128.Idx) (1 : Fin 2) = (ix3 b (1 : Fin 2) c : S8x2x128.Idx) :=
    funext fun a => Fin.ext (by match a with | ⟨0, _⟩ => rfl | ⟨1, _⟩ => rfl | ⟨2, _⟩ => rfl)
  unfold val_main_v32
  refine (Host.reduce_eq_fold_single (s := S8x2x128) (t := S8x128) (a := (1 : Fin 3))
    (FloatOps.maximumf (F := Ideal) (φ := .f32))
    (val_main_v31 (F := Ideal) x0 x1 x2 x3 x4 x5 x6 x7 x8 x9) (val_main_cst_3 (F := Ideal)) reducesTo_S8x2x128_S8x128_d1 hR h_S_
    (ix2 b c : S8x128.Idx)).trans ?_
  refine (fold_pair (FloatOps.maximumf (F := Ideal) (φ := .f32)) _ _).trans ?_
  show max (val_main_v31 (F := Ideal) x0 x1 x2 x3 x4 x5 x6 x7 x8 x9 (hR.lift (ix2 b c : S8x128.Idx) (0 : Fin 2)))
      (max (val_main_v31 (F := Ideal) x0 x1 x2 x3 x4 x5 x6 x7 x8 x9 (hR.lift (ix2 b c : S8x128.Idx) (1 : Fin 2)))
        (Ideal.ofBits .f32 0xFF800000#32)) = _
  rw [l0, l1, stack_fst, stack_snd, ninf_eq_bot, max_bot_right]

/-- One more maximum with −∞ changes nothing: the subtracted quantity at (b, c) is m = max(e3, e5). -/
theorem colmax_apply (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v34 (F := Ideal) x0 x1 x2 x3 x4 x5 x6 x7 x8 x9 (ix2 b c)
      = max (val_main_v27 (F := Ideal) x0 x1 x2 x3 x4 x5 x6 x7 x8 (ix2 b c))
          (val_main_v28 (F := Ideal) x0 x1 x2 x3 x4 x5 x6 x7 x9 (ix2 b c)) := by
  rw [val_main_v34_apply, val_main_v33_apply, val_main_cst_4_apply, pairmax_apply]
  show max (Ideal.ofBits .f32 0xFF800000#32) _ = _
  rw [ninf_eq_bot, max_bot_left]

/-- Row 0 of the exponentials: exp(e3 − m). -/
theorem shift_fst (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v38 (F := Ideal) x0 x1 x2 x3 x4 x5 x6 x7 x8 x9 (ix3 b 0 c)
      = Ideal.exp (val_main_v27 (F := Ideal) x0 x1 x2 x3 x4 x5 x6 x7 x8 (ix2 b c) - max (val_main_v27 (F := Ideal) x0 x1 x2 x3 x4 x5 x6 x7 x8 (ix2 b c)) (val_main_v28 (F := Ideal) x0 x1 x2 x3 x4 x5 x6 x7 x9 (ix2 b c))) := by
  have e : idx_main_v35 (idx_main_v36 (ix3 b (0 : Fin 2) c : S8x2x128.Idx)) = (ix2 b c : S8x128.Idx) :=
    funext fun a => Fin.ext (by match a with | ⟨0, _⟩ => rfl | ⟨1, _⟩ => rfl)
  rw [val_main_v38_apply, val_main_v37_apply, val_main_v36_apply, val_main_v35_apply, e, colmax_apply, stack_fst,
    Ideal.hostUnary_exp_def, Ideal.subf_def]

/-- Row 1 of the exponentials: exp(e5 − m). -/
theorem shift_snd (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v38 (F := Ideal) x0 x1 x2 x3 x4 x5 x6 x7 x8 x9 (ix3 b 1 c)
      = Ideal.exp (val_main_v28 (F := Ideal) x0 x1 x2 x3 x4 x5 x6 x7 x9 (ix2 b c) - max (val_main_v27 (F := Ideal) x0 x1 x2 x3 x4 x5 x6 x7 x8 (ix2 b c)) (val_main_v28 (F := Ideal) x0 x1 x2 x3 x4 x5 x6 x7 x9 (ix2 b c))) := by
  have e : idx_main_v35 (idx_main_v36 (ix3 b (1 : Fin 2) c : S8x2x128.Idx)) = (ix2 b c : S8x128.Idx) :=
    funext fun a => Fin.ext (by match a with | ⟨0, _⟩ => rfl | ⟨1, _⟩ => rfl)
  rw [val_main_v38_apply, val_main_v37_apply, val_main_v36_apply, val_main_v35_apply, e, colmax_apply, stack_snd,
    Ideal.hostUnary_exp_def, Ideal.subf_def]

/-- The sum over the stacked axis from 0 is the sum of the two rows: 0 + x = x. -/
theorem norm_apply (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v39 (F := Ideal) x0 x1 x2 x3 x4 x5 x6 x7 x8 x9 (ix2 b c)
      = val_main_v38 (F := Ideal) x0 x1 x2 x3 x4 x5 x6 x7 x8 x9 (ix3 b 0 c) + val_main_v38 (F := Ideal) x0 x1 x2 x3 x4 x5 x6 x7 x8 x9 (ix3 b 1 c) := by
  have i0 : idx_main_v39 (ix2 b c : S8x128.Idx) (0 : Fin 2) = (ix3 b (0 : Fin 2) c : S8x2x128.Idx) :=
    funext fun a => Fin.ext (by match a with | ⟨0, _⟩ => rfl | ⟨1, _⟩ => rfl | ⟨2, _⟩ => rfl)
  have i1 : idx_main_v39 (ix2 b c : S8x128.Idx) (1 : Fin 2) = (ix3 b (1 : Fin 2) c : S8x2x128.Idx) :=
    funext fun a => Fin.ext (by match a with | ⟨0, _⟩ => rfl | ⟨1, _⟩ => rfl | ⟨2, _⟩ => rfl)
  rw [val_main_v39_apply, val_main_cst_5_apply, Fin.sum_univ_two, i0, i1]
  show Ideal.ofBits .f32 0x00000000#32 + _ = _
  rw [Ideal.ofBits_zero_f32, zero_add]

/-- Entry (b, 0, c) of the reference's weight table is the first softmax weight at (b, c). -/
theorem soft_fst (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v42 (F := Ideal) x0 x1 x2 x3 x4 x5 x6 x7 x8 x9 (ix3 b 0 c)
      = Cert.KernelIdeal.Chain.attn3 (F := Ideal) (val_main_v3 (F := Ideal) x0 x1 x2) (val_main_v7 (F := Ideal) x2) x3 x4 x5 x6 x7 x8 x9 (ix2 b c) := by
  have e : idx_main_v40 (idx_main_v41 (ix3 b (0 : Fin 2) c : S8x2x128.Idx)) = (ix2 b c : S8x128.Idx) :=
    funext fun a => Fin.ext (by match a with | ⟨0, _⟩ => rfl | ⟨1, _⟩ => rfl)
  unfold Cert.KernelIdeal.Chain.attn3
  rw [softFst_apply, ← excite_fst_eq x0 x1 x2 x3 x4 x5 x6 x7 x8, ← excite_snd_eq x0 x1 x2 x3 x4 x5 x6 x7 x9,
    val_main_v42_apply, val_main_v41_apply, val_main_v40_apply, e, norm_apply, shift_fst, shift_snd,
    Ideal.hostDivf_def]

/-- Entry (b, 1, c) of the reference's weight table is the second softmax weight at (b, c). -/
theorem soft_snd (x0 x1 : FVec Ideal S500000x128 .f32) (x2 : IVec S500000 32) (x3 : FVec Ideal S128x16 .f32)
    (x4 x5 x6 x7 : FVec Ideal S16 .f32) (x8 x9 : FVec Ideal S16x128 .f32) (b : Fin 8) (c : Fin 128) :
    val_main_v42 (F := Ideal) x0 x1 x2 x3 x4 x5 x6 x7 x8 x9 (ix3 b 1 c)
      = Cert.KernelIdeal.Chain.attn5 (F := Ideal) (val_main_v3 (F := Ideal) x0 x1 x2) (val_main_v7 (F := Ideal) x2) x3 x4 x5 x6 x7 x8 x9 (ix2 b c) := by
  have e : idx_main_v40 (idx_main_v41 (ix3 b (1 : Fin 2) c : S8x2x128.Idx)) = (ix2 b c : S8x128.Idx) :=
    funext fun a => Fin.ext (by match a with | ⟨0, _⟩ => rfl | ⟨1, _⟩ => rfl)
  unfold Cert.KernelIdeal.Chain.attn5
  rw [softSnd_apply, ← excite_fst_eq x0 x1 x2 x3 x4 x5 x6 x7 x8, ← excite_snd_eq x0 x1 x2 x3 x4 x5 x6 x7 x9,
    val_main_v42_apply, val_main_v41_apply, val_main_v40_apply, e, norm_apply, shift_fst, shift_snd,
    Ideal.hostDivf_def]

end Cert.ReferenceIdeal.RefValue

end
-- ==== Proof.RefValue.lean ====
/-
  The reference's result as one function of the arguments, for segment ids in range.
  Row n, lane c of the reference is x0 n c · A (id n, 0, c) + x1 n c · A (id n, 1, c), with A the stacked
  weight table gathered at the row's id. For an id that is the word of b the gather reads segment b, the
  stacked table's two layers are the two softmax weights of the shared dense chain, and that chain is fed
  the per-segment sums and counts; so the result is the indicator-weighted combination with the single
  non-zero term b.
-/
import proofs.«424673_j84559316123982_1_alg».proof.Proof.Gen.ReferenceIdeal.Read
import proofs.«424673_j84559316123982_1_alg».proof.Proof.Spec
import proofs.«424673_j84559316123982_1_alg».proof.Proof.HostChain
import proofs.«424673_j84559316123982_1_alg».proof.Proof.RefScatterGather
import proofs.«424673_j84559316123982_1_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx

/-- The reference's result array is the combination of the two feature arrays by the segment's weights. -/
theorem result_eq (x0 x1 : FVec Ideal S500000x128 .f32) (x2 : IVec S500000 32) (x3 : FVec Ideal S128x16 .f32)
    (x4 x5 x6 x7 : FVec Ideal S16 .f32) (x8 x9 : FVec Ideal S16x128 .f32)
    (hr : ∀ n : Fin 500000, ∃ b : Fin 8, x2 (ix1 n) = BitVec.ofNat 32 b.val) :
    val_main_v56 (F := Ideal) x0 x1 x2 x3 x4 x5 x6 x7 x8 x9
      = Cert.Spec.combine x0 x1 (Cert.Spec.idsCol x2)
          (Cert.KernelIdeal.Chain.attn3 (F := Ideal) (Cert.Spec.segSum x0 x1 (Cert.Spec.idsCol x2)) (Cert.Spec.segCount (Cert.Spec.idsCol x2)) x3 x4 x5 x6 x7 x8 x9)
          (Cert.KernelIdeal.Chain.attn5 (F := Ideal) (Cert.Spec.segSum x0 x1 (Cert.Spec.idsCol x2)) (Cert.Spec.segCount (Cert.Spec.idsCol x2)) x3 x4 x5 x6 x7 x8 x9) := by
  funext i
  obtain ⟨n, c, rfl⟩ : ∃ (n : Fin 500000) (c : Fin 128), i = ix2 n c := ⟨i 0, i 1, eq_ix2 i⟩
  obtain ⟨b, hb⟩ := hr n
  -- the two gathered layers at row n are segment b's two weights
  have hn : n.val < 500000 := n.isLt
  have hc : c.val < 128 := c.isLt
  -- the reshape [500000, 1, 128] → [500000, 128] is row-major: flat position n·128 + c on both sides
  have i0 : idx_main_v50 (idx_main_v51 (ix2 n c)) = ix3 n 0 c :=
    funext fun a => Fin.ext (by
      match a with
      | ⟨0, _⟩ => show (n.val * 128 + c.val) / 128 = n.val; omega
      | ⟨1, _⟩ => rfl
      | ⟨2, _⟩ => show (n.val * 128 + c.val) % 128 = c.val; omega)
  have i1 : idx_main_v53 (idx_main_v54 (ix2 n c)) = ix3 n 1 c :=
    funext fun a => Fin.ext (by
      match a with
      | ⟨0, _⟩ => show (n.val * 128 + c.val) / 128 = n.val; omega
      | ⟨1, _⟩ => rfl
      | ⟨2, _⟩ => show (n.val * 128 + c.val) % 128 = c.val; omega)
  rw [val_main_v56_apply, val_main_v52_apply, val_main_v55_apply, val_main_v51_apply, val_main_v54_apply,
    val_main_v50_apply, val_main_v53_apply, i0, i1,
    gather_at x0 x1 x2 x3 x4 x5 x6 x7 x8 x9 n 0 c b hb, gather_at x0 x1 x2 x3 x4 x5 x6 x7 x8 x9 n 1 c b hb,
    soft_fst, soft_snd, seg_eq, cnt_eq]
  show _ = Cert.Spec.combineAt _ _ _ _ _ n c
  rw [Cert.Spec.combineAt_of_id _ _ _ _ _ n c b ((Cert.Spec.idsCol_apply x2 n 0).trans hb)]
  rfl

end Cert.ReferenceIdeal.RefValue

end
-- ==== Proof.PreRange.lean ====
/-
  What the precondition says of the segment ids. Its last two conjuncts are "every id ≥ 0" and "every id < 8",
  each an all-reduction by `and` of an elementwise signed comparison; an all-reduction that is 1 had a 1 at
  every element, and a 32-bit word w with 0 ≤ w < 8 as a signed number is the word of a unique b in 0 … 7.
-/
import proofs.«424673_j84559316123982_1_alg».proof.Pre_finite_inputs
import proofs.«424673_j84559316123982_1_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- A word that is at least 0 and below 8 as a signed number is the word of some b in 0 … 7. -/
theorem word_of_range (w : BitVec 32) (h0 : IntOp.cmpi .sge w 0#32 = 1#1) (h8 : IntOp.cmpi .slt w 8#32 = 1#1) :
    ∃ b : Fin 8, w = BitVec.ofNat 32 b.val := by
  rw [IntOp.cmpi_sge] at h0
  rw [IntOp.cmpi_slt] at h8
  have z0 : (0#32 : BitVec 32).toInt = 0 := by decide
  have z8 : (8#32 : BitVec 32).toInt = 8 := by decide
  rw [z0] at h0
  rw [z8] at h8
  have hlt : w.toNat < 2 ^ 32 := w.isLt
  have hn : w.toNat < 8 := by
    by_cases hc : 2 * w.toNat < 2 ^ 32
    · have e : w.toInt = (w.toNat : Int) := by
        unfold BitVec.toInt; rw [if_pos hc]
      omega
    · have e : w.toInt = (w.toNat : Int) - ((2 ^ 32 : Nat) : Int) := by
        unfold BitVec.toInt; rw [if_neg hc]
      omega
  refine ⟨⟨w.toNat, hn⟩, BitVec.eq_of_toNat_eq ?_⟩
  rw [BitVec.toNat_ofNat, Nat.mod_eq_of_lt hlt]

/-- Under the precondition every segment id is the word of some segment b in 0 … 7. -/
theorem ids_in_range {F : FTy → Type} [FloatOps F] (a0 a1 : FVec F S500000x128 .f32) (a2 : IVec S500000 32)
    (a3 : FVec F S128x16 .f32) (a4 a5 a6 a7 : FVec F S16 .f32) (a8 a9 : FVec F S16x128 .f32)
    (h : Cert.Pre_finite_inputs.fn (F := F) a0 a1 a2 a3 a4 a5 a6 a7 a8 a9 = fun _ => 1#1) (n : Fin 500000) :
    ∃ b : Fin 8, a2 (ix1 n) = BitVec.ofNat 32 b.val := by
  have e := congrFun h ix0
  dsimp only [fn, fn_part1, fn_part2, fn_part3] at e
  -- the predicate is ((… ∧ all(id ≥ 0)) ∧ all(id < 8)), each `and` one bit
  obtain ⟨e1, e50⟩ := IntOp.andi_eq_one.1 e
  obtain ⟨-, e46⟩ := IntOp.andi_eq_one.1 e1
  exact word_of_range _ (Host.reduce_andi_all _ _ _ _ ix0 e46 (ix1 n)) (Host.reduce_andi_all _ _ _ _ ix0 e50 (ix1 n))

end Cert.PreRange

end
-- ==== Proof.lean ====
/-
  The certificate: the kernel (two passes over 500000 rows with a small dense chain between them) and the
  jnp reference compute, on the extended reals, the same array

      out n c = x0 n c · w3 (id n) c + x1 n c · w5 (id n) c,

  where (w3, w5) are the two-way softmax weights the dense chain makes of the per-segment means of x0 + x1,
  for segment ids in 0 … 7 (the precondition's last two conjuncts: the reference indexes an axis of extent 8
  by the id). The kernel's side: its run with the result array named, that array read back through the two
  passes and the host operations between them (`Result.result_eq`). The reference's side: its run, and its
  result term read at an index (`RefValue.result_eq`); there the id range turns the gather into "segment b's
  entry" and the indicator sum into its one term. The per-segment sums and counts are the same sums on both
  sides (a masked sum over row tiles against a scatter-add), and the dense chain between them is the same
  chain of operations, so it is never opened. No law used here needs a finite input: a product with 0 is 0 on
  every extended real.
-/
import proofs.«424673_j84559316123982_1_alg».proof.Defs
import proofs.«424673_j84559316123982_1_alg».proof.Proof.Gen.Kernel
import proofs.«424673_j84559316123982_1_alg».proof.Proof.Gen.Kernel.Skeleton
import proofs.«424673_j84559316123982_1_alg».proof.Proof.Gen.Kernel.Launch
import proofs.«424673_j84559316123982_1_alg».proof.Proof.Gen.Kernel.Points
import proofs.«424673_j84559316123982_1_alg».proof.Proof.Gen.Kernel.Frame
import proofs.«424673_j84559316123982_1_alg».proof.Proof.Gen.KernelIdeal
import proofs.«424673_j84559316123982_1_alg».proof.Proof.Gen.KernelIdeal.Skeleton
import proofs.«424673_j84559316123982_1_alg».proof.Proof.Gen.KernelIdeal.Launch
import proofs.«424673_j84559316123982_1_alg».proof.Proof.Gen.KernelIdeal.Points
import proofs.«424673_j84559316123982_1_alg».proof.Proof.Gen.KernelIdeal.Frame
import proofs.«424673_j84559316123982_1_alg».proof.Proof.Gen.ReferenceIdeal
import proofs.«424673_j84559316123982_1_alg».proof.Proof.Gen.Pre_finite_inputs
import proofs.«424673_j84559316123982_1_alg».proof.Proof.Gen.ReferenceIdeal.Run
import proofs.«424673_j84559316123982_1_alg».proof.Proof.Gen.ReferenceIdeal.Read
import proofs.«424673_j84559316123982_1_alg».proof.Proof.KernelRun
import proofs.«424673_j84559316123982_1_alg».proof.Proof.KernelValue
import proofs.«424673_j84559316123982_1_alg».proof.Proof.RefValue
import proofs.«424673_j84559316123982_1_alg».proof.Proof.PreRange
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result array: the weighted combination by each row's segment. -/
theorem algebraic : Cert.algebraic_KernelIdeal_ReferenceIdeal := by
  intro m ρ m' ρ' hpre hagree
  refine ⟨fun c => Cert.KernelIdeal.Result.result m c, ?_, ?_⟩
  · exact (θ_run Cert.KernelIdeal.defs _ _).mono
      (fun _ h c => ⟨(h c).1.trans (Cert.KernelIdeal.Result.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v56_eq, a0, a1, a2, a3, a4, a5, a6, a7, a8, a9]
    exact Cert.ReferenceIdeal.RefValue.result_eq _ _ _ _ _ _ _ _ _ _
      (fun n => Cert.PreRange.ids_in_range _ _ _ _ _ _ _ _ _ _ (hpre c) n)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
